-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) (main_arg2 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  main_v13
-- ==== Kernel.lean ====
abbrev S2x8x2048x64 : Shape := ⟨4, ![2, 8, 2048, 64]⟩
abbrev S16x2048x64 : Shape := ⟨3, ![16, 2048, 64]⟩
abbrev S1x256x64 : Shape := ⟨3, ![1, 256, 64]⟩
abbrev S256x64 : Shape := ⟨2, ![256, 64]⟩
abbrev S256x1 : Shape := ⟨2, ![256, 1]⟩
abbrev S64x256 : Shape := ⟨2, ![64, 256]⟩
abbrev S256x256 : Shape := ⟨2, ![256, 256]⟩
abbrev S256 : Shape := ⟨1, ![256]⟩

abbrev nBuf : Space → Nat
  | .hbm => 8
  | .vmem => 10
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S2x8x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S256x64, .f32⟩
  | .local _ .vmem, ⟨9, _⟩ => ⟨S256x1, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x8x2048x64_S16x2048x64 : S2x8x2048x64.ShapeCasts S16x2048x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  transposes_S256x64_p1_0_S64x256 : S256x64.Transposes [1, 0] S64x256
  iota_S256x256_d0_w32 : S256x256.Iotas .tc 32 [0]
  iota_S256x256_d1_w32 : S256x256.Iotas .tc 32 [1]
  bitsLt_bf16_f32 : FTy.bits .bf16 < FTy.bits .f32
  reduces_S256x256_S256 : S256x256.Reduces [1] S256
  shapeCasts_S256_S256x1 : S256.ShapeCasts S256x1
  broadcasts_S256x1_S256x64 : S256x1.Broadcasts S256x64
  shapeCasts_S256x64_S1x256x64 : S256x64.ShapeCasts S1x256x64
  shapeCasts_S16x2048x64_S2x8x2048x64 : S16x2048x64.ShapeCasts S2x8x2048x64
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S16x2048x64.size a
  hwx0_1 : ∀ i : grid0.Coords, EltTy.bits .f32 = 32 ∨ (Rect.block (s := S16x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S16x2048x64.size a
  hwx0_2 : ∀ i : grid0.Coords, EltTy.bits .f32 = 32 ∨ (Rect.block (s := S16x2048x64) S1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S_ : Shape := ⟨0, ![]⟩
abbrev S2048x2048 : Shape := ⟨2, ![2048, 2048]⟩
abbrev S2x8x2048 : Shape := ⟨3, ![2, 8, 2048]⟩
abbrev S2x8x2048x1 : Shape := ⟨4, ![2, 8, 2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S_, .f32⟩
  | .hbm, ⟨8, _⟩ => ⟨S2x8x2048x2048, .f32⟩
  | .hbm, ⟨9, _⟩ => ⟨S2x8x2048x2048, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S_, .i1⟩
  | .hbm, ⟨22, _⟩ => ⟨S2048x2048, .i1⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .i1⟩
  | .hbm, ⟨30, _⟩ => ⟨S2048x2048, .i1⟩
  | .hbm, ⟨31, _⟩ => ⟨S2048x2048, .i1⟩
  | .hbm, ⟨32, _⟩ => ⟨S_, .f32⟩
  | .hbm, ⟨33, _⟩ => ⟨S2x8x2048x2048, .i1⟩
  | .hbm, ⟨34, _⟩ => ⟨S2x8x2048x2048, .f32⟩
  | .hbm, ⟨35, _⟩ => ⟨S2x8x2048x2048, .f32⟩
  | .hbm, ⟨36, _⟩ => ⟨S2x8x2048x64, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x64, .f32⟩
  | .hbm, ⟨41, _⟩ => ⟨S2x8x2048x64, .f32⟩
  | .hbm, ⟨42, _⟩ => ⟨S2x8x2048x64, .i1⟩
  | .hbm, ⟨43, _⟩ => ⟨S_, .f32⟩
  | .hbm, ⟨44, _⟩ => ⟨S2x8x2048x64, .f32⟩
  | .hbm, ⟨45, _⟩ => ⟨S2x8x2048x64, .f32⟩
  | .hbm, ⟨46, _⟩ => ⟨S_, .f32⟩
  | .hbm, ⟨47, _⟩ => ⟨S2x8x2048x64, .f32⟩
  | .hbm, ⟨48, _⟩ => ⟨S2x8x2048x64, .i1⟩
  | .hbm, ⟨49, _⟩ => ⟨S_, .f32⟩
  | .hbm, ⟨50, _⟩ => ⟨S2x8x2048x64, .f32⟩
  | .hbm, ⟨51, _⟩ => ⟨S2x8x2048x64, .f32⟩
  | .hbm, ⟨52, _⟩ => ⟨S_, .f32⟩
  | .hbm, ⟨53, _⟩ => ⟨S2x8x2048x64, .f32⟩
  | .hbm, ⟨54, _⟩ => ⟨S2x8x2048x64, .i1⟩
  | .hbm, ⟨55, _⟩ => ⟨S_, .f32⟩
  | .hbm, ⟨56, _⟩ => ⟨S2x8x2048x64, .f32⟩
  | .hbm, ⟨57, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v15 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_cst : Ref sig .tc := ⟨.hbm, 43, rfl⟩
abbrev main_call2_call0_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call1_v0 : Ref sig .tc := ⟨.hbm, 50, rfl⟩
abbrev main_call2_v4 : Ref sig .tc := ⟨.hbm, 51, rfl⟩
abbrev main_call2_cst_2 : Ref sig .tc := ⟨.hbm, 52, rfl⟩
abbrev main_call2_v5 : Ref sig .tc := ⟨.hbm, 53, rfl⟩
abbrev main_call2_v6 : Ref sig .tc := ⟨.hbm, 54, rfl⟩
abbrev main_call2_cst_3 : Ref sig .tc := ⟨.hbm, 55, rfl⟩
abbrev main_call2_call2_v0 : Ref sig .tc := ⟨.hbm, 56, rfl⟩
abbrev main_v22 : Ref sig .tc := ⟨.hbm, 57, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  bcast_S_S2048x2048 : S_.BroadcastsInDim S2048x2048 (![] : Fin 0 → Fin S2048x2048.rank)
  bcast_S2048x2048_S2x8x2048x2048_2_3 : S2048x2048.BroadcastsInDim S2x8x2048x2048 (![2, 3] : Fin 2 → Fin S2x8x2048x2048.rank)
  reducesTo_S2x8x2048x2048_S2x8x2048_d3 : S2x8x2048x2048.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S2x8x2048x1_S2x8x2048x64_0_1_2_3 : S2x8x2048x1.BroadcastsInDim S2x8x2048x64 (![0, 1, 2, 3] : Fin 4 → Fin S2x8x2048x64.rank)
  bcast_S_S2x8x2048x64 : S_.BroadcastsInDim S2x8x2048x64 (![] : Fin 0 → Fin S2x8x2048x64.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.K.Conds.lean ====
/-
  The three conditionals of the attention body, by grid coordinate.

  A grid point is (batch·head, query block `qi`, key block `ki`), each block 256 positions. The body zeroes its two
  accumulators where `ki = 0`, adds the block's contribution where `ki ≤ qi` (the causal skip: a key block wholly
  after the query block contributes nothing), and writes the quotient out where `ki = 7`, the last key block. Here:
  the conditions as the body computes them on 32-bit words, each decided as a fact about the coordinates; where the
  output window is idle and where it is written back; the memrefs the body is called with.
-/
import proofs.«137528_j72902774882841_1_alg».proof.Proof.Gen.Kernel.Frame
import proofs.«137528_j72902774882841_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions -/

/-- The accumulators are reset: the key-block coordinate is zero (the body's word chain, substituted). -/
abbrev cond1 (i : grid0.Coords) : Prop :=
  Scalar.cmpi .ne (Scalar.extui (Scalar.cmpi .eq (BitVec.ofNat 32 (i 2).val) 0#32)) 0#32 = 1#1
/-- The block contributes: the key block is not after the query block. -/
abbrev cond2 (i : grid0.Coords) : Prop :=
  Scalar.cmpi .ne (Scalar.extui (Scalar.cmpi .sle (BitVec.ofNat 32 (i 2).val) (BitVec.ofNat 32 (i 1).val))) 0#32 = 1#1
/-- The quotient is written out: the key block is the last. -/
abbrev cond3 (i : grid0.Coords) : Prop := k0_cond3 i = 1#1

theorem cond1_iff (i : grid0.Coords) : cond1 i ↔ (i 2).val = 0 :=
  (by decide : ∀ a : Fin 8, (Scalar.cmpi .ne (Scalar.extui (Scalar.cmpi .eq (BitVec.ofNat 32 a.val) 0#32)) 0#32 = 1#1) ↔ a.val = 0) (i 2)
theorem cond2_iff (i : grid0.Coords) : cond2 i ↔ (i 2).val ≤ (i 1).val :=
  (by decide : ∀ a b : Fin 8, (Scalar.cmpi .ne (Scalar.extui (Scalar.cmpi .sle (BitVec.ofNat 32 a.val) (BitVec.ofNat 32 b.val))) 0#32 = 1#1) ↔ a.val ≤ b.val) (i 2) (i 1)
theorem cond3_iff (i : grid0.Coords) : cond3 i ↔ (i 2).val = 7 :=
  (by decide : ∀ a : Fin 8, (Scalar.cmpi .ne (Scalar.extui (Scalar.cmpi .eq (BitVec.ofNat 32 a.val) 7#32)) 0#32 = 1#1) ↔ a.val = 7) (i 2)

/-- The coordinates of a point: the key block is the point's number modulo 8, the query block the next digit. -/
theorem coords2_val : ∀ t : Fin cfg0.N, ((grid0.coords t) 2).val = t.val % 8 :=
  (by decide +kernel : ∀ t : Fin grid0.N, ((grid0.coords t) 2).val = t.val % 8)
theorem coords1_val : ∀ t : Fin cfg0.N, ((grid0.coords t) 1).val = t.val / 8 % 8 :=
  (by decide +kernel : ∀ t : Fin grid0.N, ((grid0.coords t) 1).val = t.val / 8 % 8)
theorem coords0_val : ∀ t : Fin cfg0.N, ((grid0.coords t) 0).val = t.val / 64 :=
  (by decide +kernel : ∀ t : Fin grid0.N, ((grid0.coords t) 0).val = t.val / 64)

/-- At the first key block the block always contributes and is never the last. -/
theorem cond2_of_cond1 (i : grid0.Coords) (h : cond1 i) : cond2 i := by
  rw [cond2_iff]; rw [cond1_iff] at h; omega
theorem not_cond3_of_cond1 (i : grid0.Coords) (h : cond1 i) : ¬cond3 i := by
  rw [cond3_iff]; rw [cond1_iff] at h; omega
/-- The first point of the grid is at the first key block. -/
theorem cond1_of_zero (t : Fin cfg0.N) (h : t.val = 0) : cond1 (grid0.coords t) := by
  rw [cond1_iff, coords2_val, h]

/-! ## Where the output window is idle, and where it is written back -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
/-- Away from the last key block the body stores nothing into the output window, -/
theorem idle3 (i : grid0.Coords) (h : ¬cond3 i) : cfg0.idle 3 i = true := by
  show (!(k0_cond3 i == 1#1)) = true
  simp only [Bool.not_eq_true', beq_eq_false_iff_ne, ne_eq]; exact h
/-- at the last it stores the quotient, -/
theorem live3 (i : grid0.Coords) (h : cond3 i) : cfg0.idle 3 i = false := by
  show (!(k0_cond3 i == 1#1)) = false
  simp only [Bool.not_eq_false', beq_iff_eq]; exact h
/-- and only there is the window written back. -/
theorem noFlush3 (t : Fin cfg0.N) (h : ¬cond3 (grid0.coords t)) : (cfg0.win 3).flush t = false := by
  rw [cond3_iff, coords2_val] at h
  cases hf : (cfg0.win 3).flush t with
  | false => rfl
  | true => exact absurd ((flush0_3 t).mp hf) h

/-! ## The memrefs the body is called with -/

abbrev ms0 (t : Fin cfg0.N) : Memref sig .tc .vmem S1x256x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x64 .f32 := win0_3.stage (cfg0.slots t 3)
abbrev hs3 (t : Fin cfg0.N) : (ms3 t).IsWhole := hstage0_3 ((cfg0.slots t 3).cast nbuf0_3)
/-- The numerator's accumulator and the normaliser's: whole buffers of the kernel's own, kept from point to point. -/
abbrev scN : Memref sig .tc .vmem S256x64 .f32 := Memref.whole cc0_scratch0
abbrev scD : Memref sig .tc .vmem S256x1 .f32 := Memref.whole cc0_scratch1

/-- What the region is entered with besides its windows: the two accumulators at anything, and the generator register. -/
theorem PhiA_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.Kernel.Body

end
-- ==== Proof.K.RunA.lean ====
/-
  The body at a first key block: both accumulators are stored with zeros before they are read, the block's contribution is
  added and stored; the key block is not the last, so the output window is not touched. The accumulators may hold anything
  on entry.
-/
import proofs.«137528_j72902774882841_1_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i)
    (x0 x1 x2 : Vec F S1x256x64 .f32) :
    Σ' (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, fun E K => ?run⟩
  case run =>
    haveI : Fact (cond1 i) := ⟨hc1⟩
    haveI : Fact (cond2 i) := ⟨hc2⟩
    haveI : Fact (¬cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.Body

end
-- ==== Proof.K.RunB.lean ====
/-
  The body where the accumulators are not reset, the block contributes and the key block is not the last: the three
  input blocks are read, the numerator's accumulator is loaded, added to and stored whole, and likewise the normaliser's;
  the output window is not touched. What each accumulator is left with is found as the list of pieces stored into it.
-/
import proofs.«137528_j72902774882841_1_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runB (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i)
    (x0 x1 x2 : Vec F S1x256x64 .f32) (xs0 : Vec F S256x64 .f32) (xs1 : Vec F S256x1 .f32) :
    Σ' (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, fun E K => ?run⟩
  case run =>
    haveI : Fact (¬cond1 i) := ⟨hc1⟩
    haveI : Fact (cond2 i) := ⟨hc2⟩
    haveI : Fact (¬cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.Body

end
-- ==== Proof.K.RunC.lean ====
/-
  The body at a key block after the query block, not the first and not the last: none of the three conditionals is taken,
  and the body does nothing.
-/
import proofs.«137528_j72902774882841_1_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runC (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : ¬cond3 i)
    (E : Set ℕ) (K : PUnit → sProp 𝕄) :
    K ⟨⟩ ⊢ wp frame (wpE (defs₀ (F := F)) Variants.none c none) E (cc0__taylor_attn_kernel i arg3 harg3 arg4 harg4 arg5 harg5 arg6 harg6 arg7 harg7 arg8 harg8) K := by
  haveI : Fact (¬cond1 i) := ⟨hc1⟩
  haveI : Fact (¬cond2 i) := ⟨hc2⟩
  haveI : Fact (¬cond3 i) := ⟨hc3⟩
  simp only [cc0__taylor_attn_kernel_eq_skeleton]; unfold cc0__taylor_attn_kernel_skel
  iintro Hk
  sl_exec (disch := first | exact hc1 | exact hc2 | exact hc3)
  sl_step
  iexact Hk

end Cert.Kernel.Body

end
-- ==== Proof.K.RunD.lean ====
/-
  The body at the last key block when the query block is the last too: the block contributes (both accumulators loaded, added
  to and stored), then the two accumulators are read back and their quotient, infinities replaced, is stored over the whole
  output window.
-/
import proofs.«137528_j72902774882841_1_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i)
    (x0 x1 x2 : Vec F S1x256x64 .f32) (xs0 : Vec F S256x64 .f32) (xs1 : Vec F S256x1 .f32) :
    Σ' (LO : List (View.Piece (Elt F) S1x256x64 .f32)) (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, ?_, fun E K => ?run⟩
  case run =>
    haveI : Fact (¬cond1 i) := ⟨hc1⟩
    haveI : Fact (cond2 i) := ⟨hc2⟩
    haveI : Fact (cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%do0, %fo0, -, HO⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    isplitl [HS0]; · iexists _; iexact HS0
    iexists _; iexact HS1

end Cert.Kernel.Body

end
-- ==== Proof.K.RunE.lean ====
/-
  The body at the last key block when it is after the query block: the block contributes nothing, the two accumulators
  are read and their quotient, infinities replaced, is stored over the whole output window; the accumulators stay as they were.
-/
import proofs.«137528_j72902774882841_1_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i)
    (xs0 : Vec F S256x64 .f32) (xs1 : Vec F S256x1 .f32) :
    { LO : List (View.Piece (Elt F) S1x256x64 .f32) //
      ∀ (E : Set ℕ) (K : PUnit → sProp 𝕄),
        iprop((∃ d, owns (c : Thread nD τ) arg6 fullShare d)
            ∗ owns (c : Thread nD τ) arg7 fullShare xs0 ∗ owns (c : Thread nD τ) arg8 fullShare xs1
            ∗ (iprop((∃ f, arg6.view.loc (c : Thread nD τ) ↦[arg6.view.set]{fullShare} arg6.view.writes (Elt F) f LO)
                ∗ owns (c : Thread nD τ) arg7 fullShare xs0 ∗ owns (c : Thread nD τ) arg8 fullShare xs1) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, fun E K => ?run⟩
  case run =>
    haveI : Fact (¬cond1 i) := ⟨hc1⟩
    haveI : Fact (¬cond2 i) := ⟨hc2⟩
    haveI : Fact (cond3 i) := ⟨hc3⟩
    simp only [cc0__taylor_attn_kernel_eq_skeleton]; unfold cc0__taylor_attn_kernel_skel
    unfold owns
    iintro ⟨⟨%do0, %fo0, -, HO⟩, ⟨%fs0, %hfs0, HS0⟩, ⟨%fs1, %hfs1, HS1⟩, Hk⟩
    obtain rfl := harg7.eq_unread hfs0; obtain rfl := harg8.eq_unread hfs1
    sl_exec (disch := first | exact hc1 | exact hc2 | exact hc3)
    sl_step
    iapply Hk
    isplitl [HO]; · iexists _; iexact HO
    isplitl [HS0]
    · iexists _; isplitr; · ipureintro; exact harg7.read_unread _
      iexact HS0
    iexists _; isplitr; · ipureintro; exact harg8.read_unread _
    iexact HS1

end Cert.Kernel.Body

end
-- ==== Proof.K.Pieces.lean ====
/-
  What the body's stores leave, case by case, as values: each accumulator (and, at a last key block, the output window)
  is stored whole, so the pieces a case's run found read back as the last payload stored — the contribution added to what
  the accumulator held (zeros at a first key block), and for the output the quotient of the two accumulators as the point
  leaves them.
-/
import proofs.«137528_j72902774882841_1_alg».proof.Proof.K.RunA
import proofs.«137528_j72902774882841_1_alg».proof.Proof.K.RunB
import proofs.«137528_j72902774882841_1_alg».proof.Proof.K.RunC
import proofs.«137528_j72902774882841_1_alg».proof.Proof.K.RunD
import proofs.«137528_j72902774882841_1_alg».proof.Proof.K.RunE
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The query-block and key-block coordinates as the 32-bit words the body computes with. -/
abbrev w1 (i : grid0.Coords) : BitVec 32 := BitVec.ofNat 32 (i 1).val
abbrev w2 (i : grid0.Coords) : BitVec 32 := BitVec.ofNat 32 (i 2).val

/-! ## A first key block -/

theorem coverA_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) (y : S256x64.Idx) :
    ∃ pc ∈ (runA (F := F) c i arg3 harg3 arg4 harg4 arg5 harg5 arg6 harg6 arg7 harg7 arg8 harg8 hc1 hc2 hc3 x0 x1 x2).1, y ∈ pc.1.set :=
  View.cover_of_tiledL _ S256x64.size (by sl_kernel_rfl) y
theorem coverA_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) (y : S256x1.Idx) :
    ∃ pc ∈ (runA (F := F) c i arg3 harg3 arg4 harg4 arg5 harg5 arg6 harg6 arg7 harg7 arg8 harg8 hc1 hc2 hc3 x0 x1 x2).2.1, y ∈ pc.1.set :=
  View.cover_of_tiledL _ S256x1.size (by sl_kernel_rfl) y
theorem canonA_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) :
    View.canon (runA (F := F) c i arg3 harg3 arg4 harg4 arg5 harg5 arg6 harg6 arg7 harg7 arg8 harg8 hc1 hc2 hc3 x0 x1 x2).1 = k0_pay3 (k0_pay7 (w1 i) (w2 i) x0 x1 x2 k0_pay1) := by
  unfold runA; dsimp only; sl_unfold_words
  rw [View.canon_cons_unit_zero (S := S256x64) hz2]
  simp only [View.readAt_eq_ld, Memref.IsWhole.read_unread, View.ld_unit_zero (S := S1x256x64) hz3, View.readCov_unit_zero (S := S256x64) _ hz2]
theorem canonA_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) :
    View.canon (runA (F := F) c i arg3 harg3 arg4 harg4 arg5 harg5 arg6 harg6 arg7 harg7 arg8 harg8 hc1 hc2 hc3 x0 x1 x2).2.1 = k0_pay4 (k0_pay6 (w1 i) (w2 i) x0 x1) k0_pay2 := by
  unfold runA; dsimp only; sl_unfold_words
  rw [View.canon_cons_unit_zero (S := S256x1) hz2]
  simp only [View.readAt_eq_ld, Memref.IsWhole.read_unread, View.ld_unit_zero (S := S1x256x64) hz3, View.readCov_unit_zero (S := S256x1) _ hz2]

/-! ## A contributing key block, neither first nor last -/

theorem coverB_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) (y : S256x64.Idx) :
    ∃ pc ∈ (runB (F := F) c i arg3 harg3 arg4 harg4 arg5 harg5 arg6 harg6 arg7 harg7 arg8 harg8 hc1 hc2 hc3 x0 x1 x2 xs0 xs1).1, y ∈ pc.1.set :=
  View.cover_of_tiledL _ S256x64.size (by sl_kernel_rfl) y
theorem coverB_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) (y : S256x1.Idx) :
    ∃ pc ∈ (runB (F := F) c i arg3 harg3 arg4 harg4 arg5 harg5 arg6 harg6 arg7 harg7 arg8 harg8 hc1 hc2 hc3 x0 x1 x2 xs0 xs1).2.1, y ∈ pc.1.set :=
  View.cover_of_tiledL _ S256x1.size (by sl_kernel_rfl) y
theorem canonB_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) :
    View.canon (runB (F := F) c i arg3 harg3 arg4 harg4 arg5 harg5 arg6 harg6 arg7 harg7 arg8 harg8 hc1 hc2 hc3 x0 x1 x2 xs0 xs1).1 = k0_pay3 (k0_pay7 (w1 i) (w2 i) x0 x1 x2 xs0) := by
  unfold runB; dsimp only; sl_unfold_words
  rw [View.canon_unit_zero (S := S256x64) hz2]
  simp only [View.readAt_eq_ld, Memref.IsWhole.read_unread, View.ld_unit_zero (S := S1x256x64) hz3, View.ld_unit_zero (S := S256x64) hz2]
theorem canonB_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) :
    View.canon (runB (F := F) c i arg3 harg3 arg4 harg4 arg5 harg5 arg6 harg6 arg7 harg7 arg8 harg8 hc1 hc2 hc3 x0 x1 x2 xs0 xs1).2.1 = k0_pay4 (k0_pay6 (w1 i) (w2 i) x0 x1) xs1 := by
  unfold runB; dsimp only; sl_unfold_words
  rw [View.canon_unit_zero (S := S256x1) hz2]
  simp only [View.readAt_eq_ld, Memref.IsWhole.read_unread, View.ld_unit_zero (S := S1x256x64) hz3, View.ld_unit_zero (S := S256x1) hz2]

/-! ## The last key block, contributing -/

theorem coverD_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S1x256x64.Idx) :
    ∃ pc ∈ (runD (F := F) c i arg3 harg3 arg4 harg4 arg5 harg5 arg6 harg6 arg7 harg7 arg8 harg8 hc1 hc2 hc3 x0 x1 x2 xs0 xs1).1, y ∈ pc.1.set :=
  View.cover_of_tiledL _ S1x256x64.size (by sl_kernel_rfl) y
theorem coverD_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S256x64.Idx) :
    ∃ pc ∈ (runD (F := F) c i arg3 harg3 arg4 harg4 arg5 harg5 arg6 harg6 arg7 harg7 arg8 harg8 hc1 hc2 hc3 x0 x1 x2 xs0 xs1).2.1, y ∈ pc.1.set :=
  View.cover_of_tiledL _ S256x64.size (by sl_kernel_rfl) y
theorem coverD_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S256x1.Idx) :
    ∃ pc ∈ (runD (F := F) c i arg3 harg3 arg4 harg4 arg5 harg5 arg6 harg6 arg7 harg7 arg8 harg8 hc1 hc2 hc3 x0 x1 x2 xs0 xs1).2.2.1, y ∈ pc.1.set :=
  View.cover_of_tiledL _ S256x1.size (by sl_kernel_rfl) y
theorem canonD_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).2.1 = k0_pay3 (k0_pay7 (w1 i) (w2 i) x0 x1 x2 xs0) := by
  unfold runD; dsimp only; sl_unfold_words
  rw [View.canon_unit_zero (S := S256x64) hz2]
  simp only [View.readAt_eq_ld, Memref.IsWhole.read_unread, View.ld_unit_zero (S := S1x256x64) hz3, View.ld_unit_zero (S := S256x64) hz2]
theorem canonD_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).2.2.1 = k0_pay4 (k0_pay6 (w1 i) (w2 i) x0 x1) xs1 := by
  unfold runD; dsimp only; sl_unfold_words
  rw [View.canon_unit_zero (S := S256x1) hz2]
  simp only [View.readAt_eq_ld, Memref.IsWhole.read_unread, View.ld_unit_zero (S := S1x256x64) hz3, View.ld_unit_zero (S := S256x1) hz2]
theorem canonD_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).1
      = k0_pay5 (k0_pay3 (k0_pay7 (w1 i) (w2 i) x0 x1 x2 xs0)) (k0_pay4 (k0_pay6 (w1 i) (w2 i) x0 x1) xs1) := by
  unfold runD; dsimp only; sl_unfold_words
  rw [View.canon_unit_zero (S := S1x256x64) hz3]
  simp only [View.readAt_eq_ld, Memref.IsWhole.read_unread, View.ld_unit_zero (S := S1x256x64) hz3, View.ld_unit_zero (S := S256x64) hz2,
    View.ld_unit_zero (S := S256x1) hz2, View.readCov_unit_zero (S := S256x64) _ hz2, View.readCov_unit_zero (S := S256x1) _ hz2]

/-! ## The last key block, after the query block -/

theorem coverE_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i) (xs0 : Vec F S256x64 .f32) (xs1 : Vec F S256x1 .f32) (y : S1x256x64.Idx) :
    ∃ pc ∈ (runE (F := F) c i arg3 harg3 arg4 harg4 arg5 harg5 arg6 harg6 arg7 harg7 arg8 harg8 hc1 hc2 hc3 xs0 xs1).1, y ∈ pc.1.set :=
  View.cover_of_tiledL _ S1x256x64.size (by sl_kernel_rfl) y
theorem canonE_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i) (xs0 : Vec F S256x64 .f32) (xs1 : Vec F S256x1 .f32) :
    View.canon (runE (F := F) c i arg3 harg3 arg4 harg4 arg5 harg5 arg6 harg6 arg7 harg7 arg8 harg8 hc1 hc2 hc3 xs0 xs1).1 = k0_pay5 xs0 xs1 := by
  unfold runE; dsimp only; sl_unfold_words
  rw [View.canon_unit_zero (S := S1x256x64) hz3]
  simp only [View.readAt_eq_ld, Memref.IsWhole.read_unread, View.ld_unit_zero (S := S256x64) hz2, View.ld_unit_zero (S := S256x1) hz2]

end Cert.Kernel.Body

end
-- ==== Proof.K.Outs.lean ====
/-
  The accumulators point by point, the proof data, and the body at every point.

  After the body at a point the numerator's accumulator holds: where the block contributes, the block's product added to
  what it held (zeros at a first key block); where it does not, what it held. Likewise the normaliser's with the block's
  row sums. This recursion over the points is the proof data's invariant; the output window's staging buffer after a last
  key block is the quotient of the two as that point leaves them. The body at a point is one of five cases of its three
  conditionals, and in each the case's run applies, its stored pieces read back as these values.
-/
import proofs.«137528_j72902774882841_1_alg».proof.Proof.K.Pieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's step -/

/-- The numerator's accumulator after the body at coordinates `i`, from the three input blocks and what it held. -/
def numStep (i : grid0.Coords) (x0 x1 x2 : Vec F S1x256x64 .f32) (s0 : Vec F S256x64 .f32) : Vec F S256x64 .f32 :=
  if cond2 i then k0_pay3 (k0_pay7 (w1 i) (w2 i) x0 x1 x2 (if cond1 i then k0_pay1 else s0)) else s0
/-- The normaliser's accumulator likewise. -/
def denStep (i : grid0.Coords) (x0 x1 : Vec F S1x256x64 .f32) (s1 : Vec F S256x1 .f32) : Vec F S256x1 .f32 :=
  if cond2 i then k0_pay4 (k0_pay6 (w1 i) (w2 i) x0 x1) (if cond1 i then k0_pay2 else s1) else s1

/-- The two accumulators after the body at position `n`, by recursion on the position (at the grid's first point, a first
    key block, what they held before does not matter: zeros are written for it). -/
def accAt (c : Dev nD) : (n : ℕ) → n < cfg0.N → Vec F S256x64 .f32 × Vec F S256x1 .f32
  | 0, hn => (numStep (grid0.coords ⟨0, hn⟩) (iblk m c 0 ⟨0, hn⟩) (iblk m c 1 ⟨0, hn⟩) (iblk m c 2 ⟨0, hn⟩) k0_pay1,
              denStep (grid0.coords ⟨0, hn⟩) (iblk m c 0 ⟨0, hn⟩) (iblk m c 1 ⟨0, hn⟩) k0_pay2)
  | n + 1, hn => (numStep (grid0.coords ⟨n + 1, hn⟩) (iblk m c 0 ⟨n + 1, hn⟩) (iblk m c 1 ⟨n + 1, hn⟩) (iblk m c 2 ⟨n + 1, hn⟩) (accAt c n (Nat.lt_of_succ_lt hn)).1,
                  denStep (grid0.coords ⟨n + 1, hn⟩) (iblk m c 0 ⟨n + 1, hn⟩) (iblk m c 1 ⟨n + 1, hn⟩) (accAt c n (Nat.lt_of_succ_lt hn)).2)

theorem accAt_pos (c : Dev nD) (t : Fin cfg0.N) (hz : t.val ≠ 0) :
    accAt m c t.val t.isLt
      = (numStep (grid0.coords t) (iblk m c 0 t) (iblk m c 1 t) (iblk m c 2 t) (accAt m c (t.val - 1) (Nat.lt_of_le_of_lt (Nat.sub_le _ _) t.isLt)).1,
         denStep (grid0.coords t) (iblk m c 0 t) (iblk m c 1 t) (accAt m c (t.val - 1) (Nat.lt_of_le_of_lt (Nat.sub_le _ _) t.isLt)).2) := by
  obtain ⟨n, hn⟩ := t
  cases n with
  | zero => exact absurd rfl hz
  | succ n => rfl

/-- At a first key block the step does not read what the accumulators held. -/
theorem accAt_first (c : Dev nD) (t : Fin cfg0.N) (h1 : cond1 (grid0.coords t)) :
    accAt m c t.val t.isLt
      = (k0_pay3 (k0_pay7 (w1 (grid0.coords t)) (w2 (grid0.coords t)) (iblk m c 0 t) (iblk m c 1 t) (iblk m c 2 t) k0_pay1),
         k0_pay4 (k0_pay6 (w1 (grid0.coords t)) (w2 (grid0.coords t)) (iblk m c 0 t) (iblk m c 1 t)) k0_pay2) := by
  have h2 := cond2_of_cond1 _ h1
  obtain ⟨n, hn⟩ := t
  cases n with
  | zero => show (numStep _ _ _ _ _, denStep _ _ _ _) = _; unfold numStep denStep; rw [if_pos h2, if_pos h2, if_pos h1, if_pos h1]
  | succ n => show (numStep _ _ _ _ _, denStep _ _ _ _) = _; unfold numStep denStep; rw [if_pos h2, if_pos h2, if_pos h1, if_pos h1]

/-- What the output window's staging buffer holds after a last key block: the quotient of the accumulators as that point
    leaves them, infinities replaced. -/
def outAt (c : Dev nD) (t : Fin cfg0.N) : Vec F S1x256x64 .f32 :=
  k0_pay5 (accAt m c t.val t.isLt).1 (accAt m c t.val t.isLt).2

/-! ## The invariant -/

/-- Before the first point the accumulators hold anything; before any other, what the point before left. -/
def PhiS (c : Dev nD) : (n : ℕ) → n ≤ cfg0.N → sProp 𝕄
  | 0, _ => Pipeline.ΦA spec0 c
  | n + 1, hn => iprop(iprop(owns (c : Thread nD τ) scN fullShare ((accAt m c n hn).1) ∗ owns (c : Thread nD τ) scD fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare ((accAt m c n hn).1) ∗ owns (c : Thread nD τ) scD fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scN fullShare ((accAt m c (n - 1) (by omega)).1) ∗ owns (c : Thread nD τ) scD fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A buffer whose contents are a case's pieces written over anything holds the pieces' common reading. -/
theorem owns_of_pieces {s : Shape} {e : EltTy} (c : Dev nD) (M : Memref sig .tc .vmem s e) (L : List (View.Piece (Elt F) s e)) (X : s.Idx → Elt F e)
    (hcov : ∀ y, ∃ pc ∈ L, y ∈ pc.1.set) (hX : View.canon L = X) :
    (iprop(∃ f, M.view.loc (c : Thread nD τ) ↦[M.view.set]{fullShare} M.view.writes (Elt F) f L) : sProp 𝕄)
      ⊢ owns (c : Thread nD τ) M fullShare X := by
  iintro ⟨%f, H⟩
  unfold owns; iexists _; isplitr
  swap; · iexact H
  ipureintro; exact (View.read_writes_eq_canon _ _ _ hcov).trans hX

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h3 : cond3 (grid0.coords t)
  · -- a last key block: the output window is stored whole and written back
    have h1 : ¬cond1 (grid0.coords t) := fun h => not_cond3_of_cond1 _ h h3
    have hz : t.val ≠ 0 := fun h => h1 (cond1_of_zero t h)
    rw [show (dats m 0 c).leavesExact 3 t = owns (c : Thread nD τ) (ms3 t) fullShare ((dats m 0 c).after 3 t) from by
      unfold Dat.leavesExact; rw [live3 _ h3], after3]
    unfold outAt
    rw [accAt_pos m c t hz]
    rw [PhiS_castSucc m c t, PhiS_pos m c _ _ hz]
    by_cases h2 : cond2 (grid0.coords t)
    · unfold numStep denStep; rw [if_pos h2, if_pos h2, if_neg h1, if_neg h1]
      iintro ⟨⟨⟨HN, HD⟩, Hg⟩, Ho, ⟨%d0, H0⟩, ⟨%d1, H1⟩, ⟨%d2, H2⟩, ⟨%d3, H3⟩⟩
      iapply ((runD c (grid0.coords t) _ _ _ _ _ _ _ _ _ _ _ _ h1 h2 h3 (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HN]; · iexact HN
      isplitl [HD]; · iexact HD
      iintro ⟨H0, H1, H2, H3, HN, HD⟩
      isplitl [HN HD Hg]
      · isplitr [Hg]
        · isplitl [HN]
          · iapply (owns_of_pieces c _ _ _ (coverD_N c _ _ _ _ _ _ _ _ _ _ _ _ _ h1 h2 h3 _ _ _ _ _) (canonD_N c _ _ _ _ _ _ _ _ _ _ _ _ _ h1 h2 h3 _ _ _ _ _)); iexact HN
          · iapply (owns_of_pieces c _ _ _ (coverD_D c _ _ _ _ _ _ _ _ _ _ _ _ _ h1 h2 h3 _ _ _ _ _) (canonD_D c _ _ _ _ _ _ _ _ _ _ _ _ _ h1 h2 h3 _ _ _ _ _)); iexact HD
        · iexact Hg
      isplitl [Ho]; · iexact Ho
      isplitl [H0]; · iexact H0
      isplitl [H1]; · iexact H1
      isplitl [H2]; · iexact H2
      iapply (owns_of_pieces c _ _ _ (coverD_O c _ _ _ _ _ _ _ _ _ _ _ _ _ h1 h2 h3 _ _ _ _ _) (canonD_O c _ _ _ _ _ _ _ _ _ _ _ _ _ h1 h2 h3 _ _ _ _ _)); iexact H3
    · unfold numStep denStep; rw [if_neg h2, if_neg h2]
      iintro ⟨⟨⟨HN, HD⟩, Hg⟩, Ho, ⟨%d0, H0⟩, ⟨%d1, H1⟩, ⟨%d2, H2⟩, ⟨%d3, H3⟩⟩
      iapply ((runE c (grid0.coords t) _ _ _ _ _ _ _ _ _ _ _ _ h1 h2 h3 _ _).2 Set.univ _)
      isplitl [H3]; · iexists _; iexact H3
      isplitl [HN]; · iexact HN
      isplitl [HD]; · iexact HD
      iintro ⟨H3, HN, HD⟩
      isplitl [HN HD Hg]
      · isplitr [Hg]
        · isplitl [HN]; · iexact HN
          iexact HD
        · iexact Hg
      isplitl [Ho]; · iexact Ho
      isplitl [H0]; · iexact H0
      isplitl [H1]; · iexact H1
      isplitl [H2]; · iexact H2
      iapply (owns_of_pieces c _ _ _ (coverE_O c _ _ _ _ _ _ _ _ _ _ _ _ _ h1 h2 h3 _ _) (canonE_O c _ _ _ _ _ _ _ _ _ _ _ _ _ h1 h2 h3 _ _)); iexact H3
  · -- not a last key block: the output window is idle and not written back
    rw [Dat.leavesExact_idle (dats m 0 c) 3 t (idle3 _ h3) (noFlush3 t h3)]
    by_cases h1 : cond1 (grid0.coords t)
    · have h2 := cond2_of_cond1 _ h1
      rw [accAt_first m c t h1]
      by_cases hz : t.val = 0
      · rw [PhiS_castSucc m c t, PhiS_zero m c _ _ hz, PhiA_eq]
        iintro ⟨⟨⟨HN, HD⟩, Hg⟩, Ho, ⟨%d0, H0⟩, ⟨%d1, H1⟩, ⟨%d2, H2⟩, H3⟩
        iapply ((runA c (grid0.coords t) _ _ _ _ _ _ _ _ _ _ _ _ h1 h2 h3 (iblk m c 0 t) (iblk m c 1 t) (iblk m c 2 t)).2.2 Set.univ _)
        isplitl [H0]; · iexact H0
        isplitl [H1]; · iexact H1
        isplitl [H2]; · iexact H2
        isplitl [HN]; · iexact HN
        isplitl [HD]; · iexact HD
        iintro ⟨H0, H1, H2, HN, HD⟩
        isplitl [HN HD Hg]
        · isplitr [Hg]
          · isplitl [HN]
            · iapply (owns_of_pieces c _ _ _ (coverA_N c _ _ _ _ _ _ _ _ _ _ _ _ _ h1 h2 h3 _ _ _) (canonA_N c _ _ _ _ _ _ _ _ _ _ _ _ _ h1 h2 h3 _ _ _)); iexact HN
            · iapply (owns_of_pieces c _ _ _ (coverA_D c _ _ _ _ _ _ _ _ _ _ _ _ _ h1 h2 h3 _ _ _) (canonA_D c _ _ _ _ _ _ _ _ _ _ _ _ _ h1 h2 h3 _ _ _)); iexact HD
          · iexact Hg
        isplitl [Ho]; · iexact Ho
        isplitl [H0]; · iexact H0
        isplitl [H1]; · iexact H1
        isplitl [H2]; · iexact H2
        iexact H3
      · rw [PhiS_castSucc m c t, PhiS_pos m c _ _ hz]
        iintro ⟨⟨⟨HN, HD⟩, Hg⟩, Ho, ⟨%d0, H0⟩, ⟨%d1, H1⟩, ⟨%d2, H2⟩, H3⟩
        iapply ((runA c (grid0.coords t) _ _ _ _ _ _ _ _ _ _ _ _ h1 h2 h3 (iblk m c 0 t) (iblk m c 1 t) (iblk m c 2 t)).2.2 Set.univ _)
        isplitl [H0]; · iexact H0
        isplitl [H1]; · iexact H1
        isplitl [H2]; · iexact H2
        isplitl [HN]; · iexists _; iexact HN
        isplitl [HD]; · iexists _; iexact HD
        iintro ⟨H0, H1, H2, HN, HD⟩
        isplitl [HN HD Hg]
        · isplitr [Hg]
          · isplitl [HN]
            · iapply (owns_of_pieces c _ _ _ (coverA_N c _ _ _ _ _ _ _ _ _ _ _ _ _ h1 h2 h3 _ _ _) (canonA_N c _ _ _ _ _ _ _ _ _ _ _ _ _ h1 h2 h3 _ _ _)); iexact HN
            · iapply (owns_of_pieces c _ _ _ (coverA_D c _ _ _ _ _ _ _ _ _ _ _ _ _ h1 h2 h3 _ _ _) (canonA_D c _ _ _ _ _ _ _ _ _ _ _ _ _ h1 h2 h3 _ _ _)); iexact HD
          · iexact Hg
        isplitl [Ho]; · iexact Ho
        isplitl [H0]; · iexact H0
        isplitl [H1]; · iexact H1
        isplitl [H2]; · iexact H2
        iexact H3
    · have hz : t.val ≠ 0 := fun h => h1 (cond1_of_zero t h)
      rw [accAt_pos m c t hz]
      rw [PhiS_castSucc m c t, PhiS_pos m c _ _ hz]
      by_cases h2 : cond2 (grid0.coords t)
      · unfold numStep denStep; rw [if_pos h2, if_pos h2, if_neg h1, if_neg h1]
        iintro ⟨⟨⟨HN, HD⟩, Hg⟩, Ho, ⟨%d0, H0⟩, ⟨%d1, H1⟩, ⟨%d2, H2⟩, H3⟩
        iapply ((runB c (grid0.coords t) _ _ _ _ _ _ _ _ _ _ _ _ h1 h2 h3 (iblk m c 0 t) (iblk m c 1 t) (iblk m c 2 t) _ _).2.2 Set.univ _)
        isplitl [H0]; · iexact H0
        isplitl [H1]; · iexact H1
        isplitl [H2]; · iexact H2
        isplitl [HN]; · iexact HN
        isplitl [HD]; · iexact HD
        iintro ⟨H0, H1, H2, HN, HD⟩
        isplitl [HN HD Hg]
        · isplitr [Hg]
          · isplitl [HN]
            · iapply (owns_of_pieces c _ _ _ (coverB_N c _ _ _ _ _ _ _ _ _ _ _ _ _ h1 h2 h3 _ _ _ _ _) (canonB_N c _ _ _ _ _ _ _ _ _ _ _ _ _ h1 h2 h3 _ _ _ _ _)); iexact HN
            · iapply (owns_of_pieces c _ _ _ (coverB_D c _ _ _ _ _ _ _ _ _ _ _ _ _ h1 h2 h3 _ _ _ _ _) (canonB_D c _ _ _ _ _ _ _ _ _ _ _ _ _ h1 h2 h3 _ _ _ _ _)); iexact HD
          · iexact Hg
        isplitl [Ho]; · iexact Ho
        isplitl [H0]; · iexact H0
        isplitl [H1]; · iexact H1
        isplitl [H2]; · iexact H2
        iexact H3
      · unfold numStep denStep; rw [if_neg h2, if_neg h2]
        iintro ⟨⟨⟨HN, HD⟩, Hg⟩, Ho, ⟨%d0, H0⟩, ⟨%d1, H1⟩, ⟨%d2, H2⟩, H3⟩
        iapply (runC c (grid0.coords t) _ _ _ _ _ _ _ _ _ _ _ _ h1 h2 h3 Set.univ _)
        isplitl [HN HD Hg]
        · isplitr [Hg]
          · isplitl [HN]; · iexact HN
            iexact HD
          · iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HD⟩, Hg⟩
  isplitl [HN HD]
  · isplitl [HN]
    · iexists _; iexact HN
    · iexists _; iexact HD
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any reading of the floats: the program runs to its end, faults nowhere, and its three argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Conds.lean ====
/-
  The three conditionals of the attention body, by grid coordinate.

  A grid point is (batch·head, query block `qi`, key block `ki`), each block 256 positions. The body zeroes its two
  accumulators where `ki = 0`, adds the block's contribution where `ki ≤ qi` (the causal skip: a key block wholly
  after the query block contributes nothing), and writes the quotient out where `ki = 7`, the last key block. Here:
  the conditions as the body computes them on 32-bit words, each decided as a fact about the coordinates; where the
  output window is idle and where it is written back; the memrefs the body is called with.
-/
import proofs.«137528_j72902774882841_1_alg».proof.Proof.Gen.KernelIdeal.Frame
import proofs.«137528_j72902774882841_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions -/

/-- The accumulators are reset: the key-block coordinate is zero (the body's word chain, substituted). -/
abbrev cond1 (i : grid0.Coords) : Prop :=
  Scalar.cmpi .ne (Scalar.extui (Scalar.cmpi .eq (BitVec.ofNat 32 (i 2).val) 0#32)) 0#32 = 1#1
/-- The block contributes: the key block is not after the query block. -/
abbrev cond2 (i : grid0.Coords) : Prop :=
  Scalar.cmpi .ne (Scalar.extui (Scalar.cmpi .sle (BitVec.ofNat 32 (i 2).val) (BitVec.ofNat 32 (i 1).val))) 0#32 = 1#1
/-- The quotient is written out: the key block is the last. -/
abbrev cond3 (i : grid0.Coords) : Prop := k0_cond3 i = 1#1

theorem cond1_iff (i : grid0.Coords) : cond1 i ↔ (i 2).val = 0 :=
  (by decide : ∀ a : Fin 8, (Scalar.cmpi .ne (Scalar.extui (Scalar.cmpi .eq (BitVec.ofNat 32 a.val) 0#32)) 0#32 = 1#1) ↔ a.val = 0) (i 2)
theorem cond2_iff (i : grid0.Coords) : cond2 i ↔ (i 2).val ≤ (i 1).val :=
  (by decide : ∀ a b : Fin 8, (Scalar.cmpi .ne (Scalar.extui (Scalar.cmpi .sle (BitVec.ofNat 32 a.val) (BitVec.ofNat 32 b.val))) 0#32 = 1#1) ↔ a.val ≤ b.val) (i 2) (i 1)
theorem cond3_iff (i : grid0.Coords) : cond3 i ↔ (i 2).val = 7 :=
  (by decide : ∀ a : Fin 8, (Scalar.cmpi .ne (Scalar.extui (Scalar.cmpi .eq (BitVec.ofNat 32 a.val) 7#32)) 0#32 = 1#1) ↔ a.val = 7) (i 2)

/-- The coordinates of a point: the key block is the point's number modulo 8, the query block the next digit. -/
theorem coords2_val : ∀ t : Fin cfg0.N, ((grid0.coords t) 2).val = t.val % 8 :=
  (by decide +kernel : ∀ t : Fin grid0.N, ((grid0.coords t) 2).val = t.val % 8)
theorem coords1_val : ∀ t : Fin cfg0.N, ((grid0.coords t) 1).val = t.val / 8 % 8 :=
  (by decide +kernel : ∀ t : Fin grid0.N, ((grid0.coords t) 1).val = t.val / 8 % 8)
theorem coords0_val : ∀ t : Fin cfg0.N, ((grid0.coords t) 0).val = t.val / 64 :=
  (by decide +kernel : ∀ t : Fin grid0.N, ((grid0.coords t) 0).val = t.val / 64)

/-- At the first key block the block always contributes and is never the last. -/
theorem cond2_of_cond1 (i : grid0.Coords) (h : cond1 i) : cond2 i := by
  rw [cond2_iff]; rw [cond1_iff] at h; omega
theorem not_cond3_of_cond1 (i : grid0.Coords) (h : cond1 i) : ¬cond3 i := by
  rw [cond3_iff]; rw [cond1_iff] at h; omega
/-- The first point of the grid is at the first key block. -/
theorem cond1_of_zero (t : Fin cfg0.N) (h : t.val = 0) : cond1 (grid0.coords t) := by
  rw [cond1_iff, coords2_val, h]

/-! ## Where the output window is idle, and where it is written back -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
/-- Away from the last key block the body stores nothing into the output window, -/
theorem idle3 (i : grid0.Coords) (h : ¬cond3 i) : cfg0.idle 3 i = true := by
  show (!(k0_cond3 i == 1#1)) = true
  simp only [Bool.not_eq_true', beq_eq_false_iff_ne, ne_eq]; exact h
/-- at the last it stores the quotient, -/
theorem live3 (i : grid0.Coords) (h : cond3 i) : cfg0.idle 3 i = false := by
  show (!(k0_cond3 i == 1#1)) = false
  simp only [Bool.not_eq_false', beq_iff_eq]; exact h
/-- and only there is the window written back. -/
theorem noFlush3 (t : Fin cfg0.N) (h : ¬cond3 (grid0.coords t)) : (cfg0.win 3).flush t = false := by
  rw [cond3_iff, coords2_val] at h
  cases hf : (cfg0.win 3).flush t with
  | false => rfl
  | true => exact absurd ((flush0_3 t).mp hf) h

/-! ## The memrefs the body is called with -/

abbrev ms0 (t : Fin cfg0.N) : Memref sig .tc .vmem S1x256x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x64 .f32 := win0_3.stage (cfg0.slots t 3)
abbrev hs3 (t : Fin cfg0.N) : (ms3 t).IsWhole := hstage0_3 ((cfg0.slots t 3).cast nbuf0_3)
/-- The numerator's accumulator and the normaliser's: whole buffers of the kernel's own, kept from point to point. -/
abbrev scN : Memref sig .tc .vmem S256x64 .f32 := Memref.whole cc0_scratch0
abbrev scD : Memref sig .tc .vmem S256x1 .f32 := Memref.whole cc0_scratch1

/-- What the region is entered with besides its windows: the two accumulators at anything, and the generator register. -/
theorem PhiA_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.KernelIdeal.Body

end
-- ==== Proof.KI.RunA.lean ====
/-
  The body at a first key block: both accumulators are stored with zeros before they are read, the block's contribution is
  added and stored; the key block is not the last, so the output window is not touched. The accumulators may hold anything
  on entry.
-/
import proofs.«137528_j72902774882841_1_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i)
    (x0 x1 x2 : Vec F S1x256x64 .f32) :
    Σ' (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, fun E K => ?run⟩
  case run =>
    haveI : Fact (cond1 i) := ⟨hc1⟩
    haveI : Fact (cond2 i) := ⟨hc2⟩
    haveI : Fact (¬cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.Body

end
-- ==== Proof.KI.RunB.lean ====
/-
  The body where the accumulators are not reset, the block contributes and the key block is not the last: the three
  input blocks are read, the numerator's accumulator is loaded, added to and stored whole, and likewise the normaliser's;
  the output window is not touched. What each accumulator is left with is found as the list of pieces stored into it.
-/
import proofs.«137528_j72902774882841_1_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runB (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i)
    (x0 x1 x2 : Vec F S1x256x64 .f32) (xs0 : Vec F S256x64 .f32) (xs1 : Vec F S256x1 .f32) :
    Σ' (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, fun E K => ?run⟩
  case run =>
    haveI : Fact (¬cond1 i) := ⟨hc1⟩
    haveI : Fact (cond2 i) := ⟨hc2⟩
    haveI : Fact (¬cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.Body

end
-- ==== Proof.KI.RunC.lean ====
/-
  The body at a key block after the query block, not the first and not the last: none of the three conditionals is taken,
  and the body does nothing.
-/
import proofs.«137528_j72902774882841_1_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runC (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : ¬cond3 i)
    (E : Set ℕ) (K : PUnit → sProp 𝕄) :
    K ⟨⟩ ⊢ wp frame (wpE (defs₀ (F := F)) Variants.none c none) E (cc0__taylor_attn_kernel i arg3 harg3 arg4 harg4 arg5 harg5 arg6 harg6 arg7 harg7 arg8 harg8) K := by
  haveI : Fact (¬cond1 i) := ⟨hc1⟩
  haveI : Fact (¬cond2 i) := ⟨hc2⟩
  haveI : Fact (¬cond3 i) := ⟨hc3⟩
  simp only [cc0__taylor_attn_kernel_eq_skeleton]; unfold cc0__taylor_attn_kernel_skel
  iintro Hk
  sl_exec (disch := first | exact hc1 | exact hc2 | exact hc3)
  sl_step
  iexact Hk

end Cert.KernelIdeal.Body

end
-- ==== Proof.KI.RunD.lean ====
/-
  The body at the last key block when the query block is the last too: the block contributes (both accumulators loaded, added
  to and stored), then the two accumulators are read back and their quotient, infinities replaced, is stored over the whole
  output window.
-/
import proofs.«137528_j72902774882841_1_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i)
    (x0 x1 x2 : Vec F S1x256x64 .f32) (xs0 : Vec F S256x64 .f32) (xs1 : Vec F S256x1 .f32) :
    Σ' (LO : List (View.Piece (Elt F) S1x256x64 .f32)) (LN : List (View.Piece (Elt F) S256x64 .f32)), { LD : List (View.Piece (Elt F) S256x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LN)
                ∗ (∃ f, arg8.view.loc (c : Thread nD τ) ↦[arg8.view.set]{fullShare} arg8.view.writes (Elt F) f LD)) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, ?_, ?_, fun E K => ?run⟩
  case run =>
    haveI : Fact (¬cond1 i) := ⟨hc1⟩
    haveI : Fact (cond2 i) := ⟨hc2⟩
    haveI : Fact (cond3 i) := ⟨hc3⟩
    simp only [cc0__taylor_attn_kernel_eq_skeleton]; unfold cc0__taylor_attn_kernel_skel
    simp only [k0_part1_eq_skeleton]
    unfold owns
    iintro ⟨⟨%f0, %hf0, H0⟩, ⟨%f1, %hf1, H1⟩, ⟨%f2, %hf2, H2⟩, ⟨%do0, %fo0, -, HO⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    isplitl [HS0]; · iexists _; iexact HS0
    iexists _; iexact HS1

end Cert.KernelIdeal.Body

end
-- ==== Proof.KI.RunE.lean ====
/-
  The body at the last key block when it is after the query block: the block contributes nothing, the two accumulators
  are read and their quotient, infinities replaced, is stored over the whole output window; the accumulators stay as they were.
-/
import proofs.«137528_j72902774882841_1_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i)
    (xs0 : Vec F S256x64 .f32) (xs1 : Vec F S256x1 .f32) :
    { LO : List (View.Piece (Elt F) S1x256x64 .f32) //
      ∀ (E : Set ℕ) (K : PUnit → sProp 𝕄),
        iprop((∃ d, owns (c : Thread nD τ) arg6 fullShare d)
            ∗ owns (c : Thread nD τ) arg7 fullShare xs0 ∗ owns (c : Thread nD τ) arg8 fullShare xs1
            ∗ (iprop((∃ f, arg6.view.loc (c : Thread nD τ) ↦[arg6.view.set]{fullShare} arg6.view.writes (Elt F) f LO)
                ∗ owns (c : Thread nD τ) arg7 fullShare xs0 ∗ owns (c : Thread nD τ) arg8 fullShare xs1) -∗ K ⟨⟩))
          ⊢ wp frame (wpE (defs₀ (F := F)) Variants.none c none) E (cc0__taylor_attn_kernel i arg3 harg3 arg4 harg4 arg5 harg5 arg6 harg6 arg7 harg7 arg8 harg8) K } := by
  refine ⟨?_, fun E K => ?run⟩
  case run =>
    haveI : Fact (¬cond1 i) := ⟨hc1⟩
    haveI : Fact (¬cond2 i) := ⟨hc2⟩
    haveI : Fact (cond3 i) := ⟨hc3⟩
    simp only [cc0__taylor_attn_kernel_eq_skeleton]; unfold cc0__taylor_attn_kernel_skel
    unfold owns
    iintro ⟨⟨%do0, %fo0, -, HO⟩, ⟨%fs0, %hfs0, HS0⟩, ⟨%fs1, %hfs1, HS1⟩, Hk⟩
    obtain rfl := harg7.eq_unread hfs0; obtain rfl := harg8.eq_unread hfs1
    sl_exec (disch := first | exact hc1 | exact hc2 | exact hc3)
    sl_step
    iapply Hk
    isplitl [HO]; · iexists _; iexact HO
    isplitl [HS0]
    · iexists _; isplitr; · ipureintro; exact harg7.read_unread _
      iexact HS0
    iexists _; isplitr; · ipureintro; exact harg8.read_unread _
    iexact HS1

end Cert.KernelIdeal.Body

end
-- ==== Proof.KI.Pieces.lean ====
/-
  What the body's stores leave, case by case, as values: each accumulator (and, at a last key block, the output window)
  is stored whole, so the pieces a case's run found read back as the last payload stored — the contribution added to what
  the accumulator held (zeros at a first key block), and for the output the quotient of the two accumulators as the point
  leaves them.
-/
import proofs.«137528_j72902774882841_1_alg».proof.Proof.KI.RunA
import proofs.«137528_j72902774882841_1_alg».proof.Proof.KI.RunB
import proofs.«137528_j72902774882841_1_alg».proof.Proof.KI.RunC
import proofs.«137528_j72902774882841_1_alg».proof.Proof.KI.RunD
import proofs.«137528_j72902774882841_1_alg».proof.Proof.KI.RunE
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The query-block and key-block coordinates as the 32-bit words the body computes with. -/
abbrev w1 (i : grid0.Coords) : BitVec 32 := BitVec.ofNat 32 (i 1).val
abbrev w2 (i : grid0.Coords) : BitVec 32 := BitVec.ofNat 32 (i 2).val

/-! ## A first key block -/

theorem coverA_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) (y : S256x64.Idx) :
    ∃ pc ∈ (runA (F := F) c i arg3 harg3 arg4 harg4 arg5 harg5 arg6 harg6 arg7 harg7 arg8 harg8 hc1 hc2 hc3 x0 x1 x2).1, y ∈ pc.1.set :=
  View.cover_of_tiledL _ S256x64.size (by sl_kernel_rfl) y
theorem coverA_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) (y : S256x1.Idx) :
    ∃ pc ∈ (runA (F := F) c i arg3 harg3 arg4 harg4 arg5 harg5 arg6 harg6 arg7 harg7 arg8 harg8 hc1 hc2 hc3 x0 x1 x2).2.1, y ∈ pc.1.set :=
  View.cover_of_tiledL _ S256x1.size (by sl_kernel_rfl) y
theorem canonA_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) :
    View.canon (runA (F := F) c i arg3 harg3 arg4 harg4 arg5 harg5 arg6 harg6 arg7 harg7 arg8 harg8 hc1 hc2 hc3 x0 x1 x2).1 = k0_pay3 (k0_pay7 (w1 i) (w2 i) x0 x1 x2 k0_pay1) := by
  unfold runA; dsimp only; sl_unfold_words
  rw [View.canon_cons_unit_zero (S := S256x64) hz2]
  simp only [View.readAt_eq_ld, Memref.IsWhole.read_unread, View.ld_unit_zero (S := S1x256x64) hz3, View.readCov_unit_zero (S := S256x64) _ hz2]
theorem canonA_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : cond1 i) (hc2 : cond2 i) (hc3 : ¬cond3 i) (x0 x1 x2 : Vec F S1x256x64 .f32) :
    View.canon (runA (F := F) c i arg3 harg3 arg4 harg4 arg5 harg5 arg6 harg6 arg7 harg7 arg8 harg8 hc1 hc2 hc3 x0 x1 x2).2.1 = k0_pay4 (k0_pay6 (w1 i) (w2 i) x0 x1) k0_pay2 := by
  unfold runA; dsimp only; sl_unfold_words
  rw [View.canon_cons_unit_zero (S := S256x1) hz2]
  simp only [View.readAt_eq_ld, Memref.IsWhole.read_unread, View.ld_unit_zero (S := S1x256x64) hz3, View.readCov_unit_zero (S := S256x1) _ hz2]

/-! ## A contributing key block, neither first nor last -/

theorem coverB_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) (y : S256x64.Idx) :
    ∃ pc ∈ (runB (F := F) c i arg3 harg3 arg4 harg4 arg5 harg5 arg6 harg6 arg7 harg7 arg8 harg8 hc1 hc2 hc3 x0 x1 x2 xs0 xs1).1, y ∈ pc.1.set :=
  View.cover_of_tiledL _ S256x64.size (by sl_kernel_rfl) y
theorem coverB_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) (y : S256x1.Idx) :
    ∃ pc ∈ (runB (F := F) c i arg3 harg3 arg4 harg4 arg5 harg5 arg6 harg6 arg7 harg7 arg8 harg8 hc1 hc2 hc3 x0 x1 x2 xs0 xs1).2.1, y ∈ pc.1.set :=
  View.cover_of_tiledL _ S256x1.size (by sl_kernel_rfl) y
theorem canonB_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) :
    View.canon (runB (F := F) c i arg3 harg3 arg4 harg4 arg5 harg5 arg6 harg6 arg7 harg7 arg8 harg8 hc1 hc2 hc3 x0 x1 x2 xs0 xs1).1 = k0_pay3 (k0_pay7 (w1 i) (w2 i) x0 x1 x2 xs0) := by
  unfold runB; dsimp only; sl_unfold_words
  rw [View.canon_unit_zero (S := S256x64) hz2]
  simp only [View.readAt_eq_ld, Memref.IsWhole.read_unread, View.ld_unit_zero (S := S1x256x64) hz3, View.ld_unit_zero (S := S256x64) hz2]
theorem canonB_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : ¬cond3 i) (x0 x1 x2 : Vec F S1x256x64 .f32) (xs0 : Vec F S256x64 .f32) (xs1 : Vec F S256x1 .f32) :
    View.canon (runB (F := F) c i arg3 harg3 arg4 harg4 arg5 harg5 arg6 harg6 arg7 harg7 arg8 harg8 hc1 hc2 hc3 x0 x1 x2 xs0 xs1).2.1 = k0_pay4 (k0_pay6 (w1 i) (w2 i) x0 x1) xs1 := by
  unfold runB; dsimp only; sl_unfold_words
  rw [View.canon_unit_zero (S := S256x1) hz2]
  simp only [View.readAt_eq_ld, Memref.IsWhole.read_unread, View.ld_unit_zero (S := S1x256x64) hz3, View.ld_unit_zero (S := S256x1) hz2]

/-! ## The last key block, contributing -/

theorem coverD_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S1x256x64.Idx) :
    ∃ pc ∈ (runD (F := F) c i arg3 harg3 arg4 harg4 arg5 harg5 arg6 harg6 arg7 harg7 arg8 harg8 hc1 hc2 hc3 x0 x1 x2 xs0 xs1).1, y ∈ pc.1.set :=
  View.cover_of_tiledL _ S1x256x64.size (by sl_kernel_rfl) y
theorem coverD_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S256x64.Idx) :
    ∃ pc ∈ (runD (F := F) c i arg3 harg3 arg4 harg4 arg5 harg5 arg6 harg6 arg7 harg7 arg8 harg8 hc1 hc2 hc3 x0 x1 x2 xs0 xs1).2.1, y ∈ pc.1.set :=
  View.cover_of_tiledL _ S256x64.size (by sl_kernel_rfl) y
theorem coverD_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) (y : S256x1.Idx) :
    ∃ pc ∈ (runD (F := F) c i arg3 harg3 arg4 harg4 arg5 harg5 arg6 harg6 arg7 harg7 arg8 harg8 hc1 hc2 hc3 x0 x1 x2 xs0 xs1).2.2.1, y ∈ pc.1.set :=
  View.cover_of_tiledL _ S256x1.size (by sl_kernel_rfl) y
theorem canonD_N (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).2.1 = k0_pay3 (k0_pay7 (w1 i) (w2 i) x0 x1 x2 xs0) := by
  unfold runD; dsimp only; sl_unfold_words
  rw [View.canon_unit_zero (S := S256x64) hz2]
  simp only [View.readAt_eq_ld, Memref.IsWhole.read_unread, View.ld_unit_zero (S := S1x256x64) hz3, View.ld_unit_zero (S := S256x64) hz2]
theorem canonD_D (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).2.2.1 = k0_pay4 (k0_pay6 (w1 i) (w2 i) x0 x1) xs1 := by
  unfold runD; dsimp only; sl_unfold_words
  rw [View.canon_unit_zero (S := S256x1) hz2]
  simp only [View.readAt_eq_ld, Memref.IsWhole.read_unread, View.ld_unit_zero (S := S1x256x64) hz3, View.ld_unit_zero (S := S256x1) hz2]
theorem canonD_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : cond2 i) (hc3 : cond3 i) (x0 x1 x2 : Vec F S1x256x64 .f32) (xs0 : Vec F S256x64 .f32) (xs1 : Vec F S256x1 .f32) :
    View.canon (runD (F := F) c i arg3 harg3 arg4 harg4 arg5 harg5 arg6 harg6 arg7 harg7 arg8 harg8 hc1 hc2 hc3 x0 x1 x2 xs0 xs1).1
      = k0_pay5 (k0_pay3 (k0_pay7 (w1 i) (w2 i) x0 x1 x2 xs0)) (k0_pay4 (k0_pay6 (w1 i) (w2 i) x0 x1) xs1) := by
  unfold runD; dsimp only; sl_unfold_words
  rw [View.canon_unit_zero (S := S1x256x64) hz3]
  simp only [View.readAt_eq_ld, Memref.IsWhole.read_unread, View.ld_unit_zero (S := S1x256x64) hz3, View.ld_unit_zero (S := S256x64) hz2,
    View.ld_unit_zero (S := S256x1) hz2, View.readCov_unit_zero (S := S256x64) _ hz2, View.readCov_unit_zero (S := S256x1) _ hz2]

/-! ## The last key block, after the query block -/

theorem coverE_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i) (xs0 : Vec F S256x64 .f32) (xs1 : Vec F S256x1 .f32) (y : S1x256x64.Idx) :
    ∃ pc ∈ (runE (F := F) c i arg3 harg3 arg4 harg4 arg5 harg5 arg6 harg6 arg7 harg7 arg8 harg8 hc1 hc2 hc3 xs0 xs1).1, y ∈ pc.1.set :=
  View.cover_of_tiledL _ S1x256x64.size (by sl_kernel_rfl) y
theorem canonE_O (c : Dev nD) (i : grid0.Coords) (arg3 : Memref sig .tc .vmem S1x256x64 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S256x64 .f32) (harg7 : arg7.IsWhole) (arg8 : Memref sig .tc .vmem S256x1 .f32) (harg8 : arg8.IsWhole) (hc1 : ¬cond1 i) (hc2 : ¬cond2 i) (hc3 : cond3 i) (xs0 : Vec F S256x64 .f32) (xs1 : Vec F S256x1 .f32) :
    View.canon (runE (F := F) c i arg3 harg3 arg4 harg4 arg5 harg5 arg6 harg6 arg7 harg7 arg8 harg8 hc1 hc2 hc3 xs0 xs1).1 = k0_pay5 xs0 xs1 := by
  unfold runE; dsimp only; sl_unfold_words
  rw [View.canon_unit_zero (S := S1x256x64) hz3]
  simp only [View.readAt_eq_ld, Memref.IsWhole.read_unread, View.ld_unit_zero (S := S256x64) hz2, View.ld_unit_zero (S := S256x1) hz2]

end Cert.KernelIdeal.Body

end
-- ==== Proof.KI.Outs.lean ====
/-
  The accumulators point by point, the proof data, and the body at every point.

  After the body at a point the numerator's accumulator holds: where the block contributes, the block's product added to
  what it held (zeros at a first key block); where it does not, what it held. Likewise the normaliser's with the block's
  row sums. This recursion over the points is the proof data's invariant; the output window's staging buffer after a last
  key block is the quotient of the two as that point leaves them. The body at a point is one of five cases of its three
  conditionals, and in each the case's run applies, its stored pieces read back as these values.
-/
import proofs.«137528_j72902774882841_1_alg».proof.Proof.KI.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's step -/

/-- The numerator's accumulator after the body at coordinates `i`, from the three input blocks and what it held. -/
def numStep (i : grid0.Coords) (x0 x1 x2 : Vec F S1x256x64 .f32) (s0 : Vec F S256x64 .f32) : Vec F S256x64 .f32 :=
  if cond2 i then k0_pay3 (k0_pay7 (w1 i) (w2 i) x0 x1 x2 (if cond1 i then k0_pay1 else s0)) else s0
/-- The normaliser's accumulator likewise. -/
def denStep (i : grid0.Coords) (x0 x1 : Vec F S1x256x64 .f32) (s1 : Vec F S256x1 .f32) : Vec F S256x1 .f32 :=
  if cond2 i then k0_pay4 (k0_pay6 (w1 i) (w2 i) x0 x1) (if cond1 i then k0_pay2 else s1) else s1

/-- The two accumulators after the body at position `n`, by recursion on the position (at the grid's first point, a first
    key block, what they held before does not matter: zeros are written for it). -/
def accAt (c : Dev nD) : (n : ℕ) → n < cfg0.N → Vec F S256x64 .f32 × Vec F S256x1 .f32
  | 0, hn => (numStep (grid0.coords ⟨0, hn⟩) (iblk m c 0 ⟨0, hn⟩) (iblk m c 1 ⟨0, hn⟩) (iblk m c 2 ⟨0, hn⟩) k0_pay1,
              denStep (grid0.coords ⟨0, hn⟩) (iblk m c 0 ⟨0, hn⟩) (iblk m c 1 ⟨0, hn⟩) k0_pay2)
  | n + 1, hn => (numStep (grid0.coords ⟨n + 1, hn⟩) (iblk m c 0 ⟨n + 1, hn⟩) (iblk m c 1 ⟨n + 1, hn⟩) (iblk m c 2 ⟨n + 1, hn⟩) (accAt c n (Nat.lt_of_succ_lt hn)).1,
                  denStep (grid0.coords ⟨n + 1, hn⟩) (iblk m c 0 ⟨n + 1, hn⟩) (iblk m c 1 ⟨n + 1, hn⟩) (accAt c n (Nat.lt_of_succ_lt hn)).2)

theorem accAt_pos (c : Dev nD) (t : Fin cfg0.N) (hz : t.val ≠ 0) :
    accAt m c t.val t.isLt
      = (numStep (grid0.coords t) (iblk m c 0 t) (iblk m c 1 t) (iblk m c 2 t) (accAt m c (t.val - 1) (Nat.lt_of_le_of_lt (Nat.sub_le _ _) t.isLt)).1,
         denStep (grid0.coords t) (iblk m c 0 t) (iblk m c 1 t) (accAt m c (t.val - 1) (Nat.lt_of_le_of_lt (Nat.sub_le _ _) t.isLt)).2) := by
  obtain ⟨n, hn⟩ := t
  cases n with
  | zero => exact absurd rfl hz
  | succ n => rfl

/-- At a first key block the step does not read what the accumulators held. -/
theorem accAt_first (c : Dev nD) (t : Fin cfg0.N) (h1 : cond1 (grid0.coords t)) :
    accAt m c t.val t.isLt
      = (k0_pay3 (k0_pay7 (w1 (grid0.coords t)) (w2 (grid0.coords t)) (iblk m c 0 t) (iblk m c 1 t) (iblk m c 2 t) k0_pay1),
         k0_pay4 (k0_pay6 (w1 (grid0.coords t)) (w2 (grid0.coords t)) (iblk m c 0 t) (iblk m c 1 t)) k0_pay2) := by
  have h2 := cond2_of_cond1 _ h1
  obtain ⟨n, hn⟩ := t
  cases n with
  | zero => show (numStep _ _ _ _ _, denStep _ _ _ _) = _; unfold numStep denStep; rw [if_pos h2, if_pos h2, if_pos h1, if_pos h1]
  | succ n => show (numStep _ _ _ _ _, denStep _ _ _ _) = _; unfold numStep denStep; rw [if_pos h2, if_pos h2, if_pos h1, if_pos h1]

/-- What the output window's staging buffer holds after a last key block: the quotient of the accumulators as that point
    leaves them, infinities replaced. -/
def outAt (c : Dev nD) (t : Fin cfg0.N) : Vec F S1x256x64 .f32 :=
  k0_pay5 (accAt m c t.val t.isLt).1 (accAt m c t.val t.isLt).2

/-! ## The invariant -/

/-- Before the first point the accumulators hold anything; before any other, what the point before left. -/
def PhiS (c : Dev nD) : (n : ℕ) → n ≤ cfg0.N → sProp 𝕄
  | 0, _ => Pipeline.ΦA spec0 c
  | n + 1, hn => iprop(iprop(owns (c : Thread nD τ) scN fullShare ((accAt m c n hn).1) ∗ owns (c : Thread nD τ) scD fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare ((accAt m c n hn).1) ∗ owns (c : Thread nD τ) scD fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scN fullShare ((accAt m c (n - 1) (by omega)).1) ∗ owns (c : Thread nD τ) scD fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A buffer whose contents are a case's pieces written over anything holds the pieces' common reading. -/
theorem owns_of_pieces {s : Shape} {e : EltTy} (c : Dev nD) (M : Memref sig .tc .vmem s e) (L : List (View.Piece (Elt F) s e)) (X : s.Idx → Elt F e)
    (hcov : ∀ y, ∃ pc ∈ L, y ∈ pc.1.set) (hX : View.canon L = X) :
    (iprop(∃ f, M.view.loc (c : Thread nD τ) ↦[M.view.set]{fullShare} M.view.writes (Elt F) f L) : sProp 𝕄)
      ⊢ owns (c : Thread nD τ) M fullShare X := by
  iintro ⟨%f, H⟩
  unfold owns; iexists _; isplitr
  swap; · iexact H
  ipureintro; exact (View.read_writes_eq_canon _ _ _ hcov).trans hX

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h3 : cond3 (grid0.coords t)
  · -- a last key block: the output window is stored whole and written back
    have h1 : ¬cond1 (grid0.coords t) := fun h => not_cond3_of_cond1 _ h h3
    have hz : t.val ≠ 0 := fun h => h1 (cond1_of_zero t h)
    rw [show (dats m 0 c).leavesExact 3 t = owns (c : Thread nD τ) (ms3 t) fullShare ((dats m 0 c).after 3 t) from by
      unfold Dat.leavesExact; rw [live3 _ h3], after3]
    unfold outAt
    rw [accAt_pos m c t hz]
    rw [PhiS_castSucc m c t, PhiS_pos m c _ _ hz]
    by_cases h2 : cond2 (grid0.coords t)
    · unfold numStep denStep; rw [if_pos h2, if_pos h2, if_neg h1, if_neg h1]
      iintro ⟨⟨⟨HN, HD⟩, Hg⟩, Ho, ⟨%d0, H0⟩, ⟨%d1, H1⟩, ⟨%d2, H2⟩, ⟨%d3, H3⟩⟩
      iapply ((runD c (grid0.coords t) _ _ _ _ _ _ _ _ _ _ _ _ h1 h2 h3 (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HN]; · iexact HN
      isplitl [HD]; · iexact HD
      iintro ⟨H0, H1, H2, H3, HN, HD⟩
      isplitl [HN HD Hg]
      · isplitr [Hg]
        · isplitl [HN]
          · iapply (owns_of_pieces c _ _ _ (coverD_N c _ _ _ _ _ _ _ _ _ _ _ _ _ h1 h2 h3 _ _ _ _ _) (canonD_N c _ _ _ _ _ _ _ _ _ _ _ _ _ h1 h2 h3 _ _ _ _ _)); iexact HN
          · iapply (owns_of_pieces c _ _ _ (coverD_D c _ _ _ _ _ _ _ _ _ _ _ _ _ h1 h2 h3 _ _ _ _ _) (canonD_D c _ _ _ _ _ _ _ _ _ _ _ _ _ h1 h2 h3 _ _ _ _ _)); iexact HD
        · iexact Hg
      isplitl [Ho]; · iexact Ho
      isplitl [H0]; · iexact H0
      isplitl [H1]; · iexact H1
      isplitl [H2]; · iexact H2
      iapply (owns_of_pieces c _ _ _ (coverD_O c _ _ _ _ _ _ _ _ _ _ _ _ _ h1 h2 h3 _ _ _ _ _) (canonD_O c _ _ _ _ _ _ _ _ _ _ _ _ _ h1 h2 h3 _ _ _ _ _)); iexact H3
    · unfold numStep denStep; rw [if_neg h2, if_neg h2]
      iintro ⟨⟨⟨HN, HD⟩, Hg⟩, Ho, ⟨%d0, H0⟩, ⟨%d1, H1⟩, ⟨%d2, H2⟩, ⟨%d3, H3⟩⟩
      iapply ((runE c (grid0.coords t) _ _ _ _ _ _ _ _ _ _ _ _ h1 h2 h3 _ _).2 Set.univ _)
      isplitl [H3]; · iexists _; iexact H3
      isplitl [HN]; · iexact HN
      isplitl [HD]; · iexact HD
      iintro ⟨H3, HN, HD⟩
      isplitl [HN HD Hg]
      · isplitr [Hg]
        · isplitl [HN]; · iexact HN
          iexact HD
        · iexact Hg
      isplitl [Ho]; · iexact Ho
      isplitl [H0]; · iexact H0
      isplitl [H1]; · iexact H1
      isplitl [H2]; · iexact H2
      iapply (owns_of_pieces c _ _ _ (coverE_O c _ _ _ _ _ _ _ _ _ _ _ _ _ h1 h2 h3 _ _) (canonE_O c _ _ _ _ _ _ _ _ _ _ _ _ _ h1 h2 h3 _ _)); iexact H3
  · -- not a last key block: the output window is idle and not written back
    rw [Dat.leavesExact_idle (dats m 0 c) 3 t (idle3 _ h3) (noFlush3 t h3)]
    by_cases h1 : cond1 (grid0.coords t)
    · have h2 := cond2_of_cond1 _ h1
      rw [accAt_first m c t h1]
      by_cases hz : t.val = 0
      · rw [PhiS_castSucc m c t, PhiS_zero m c _ _ hz, PhiA_eq]
        iintro ⟨⟨⟨HN, HD⟩, Hg⟩, Ho, ⟨%d0, H0⟩, ⟨%d1, H1⟩, ⟨%d2, H2⟩, H3⟩
        iapply ((runA c (grid0.coords t) _ _ _ _ _ _ _ _ _ _ _ _ h1 h2 h3 (iblk m c 0 t) (iblk m c 1 t) (iblk m c 2 t)).2.2 Set.univ _)
        isplitl [H0]; · iexact H0
        isplitl [H1]; · iexact H1
        isplitl [H2]; · iexact H2
        isplitl [HN]; · iexact HN
        isplitl [HD]; · iexact HD
        iintro ⟨H0, H1, H2, HN, HD⟩
        isplitl [HN HD Hg]
        · isplitr [Hg]
          · isplitl [HN]
            · iapply (owns_of_pieces c _ _ _ (coverA_N c _ _ _ _ _ _ _ _ _ _ _ _ _ h1 h2 h3 _ _ _) (canonA_N c _ _ _ _ _ _ _ _ _ _ _ _ _ h1 h2 h3 _ _ _)); iexact HN
            · iapply (owns_of_pieces c _ _ _ (coverA_D c _ _ _ _ _ _ _ _ _ _ _ _ _ h1 h2 h3 _ _ _) (canonA_D c _ _ _ _ _ _ _ _ _ _ _ _ _ h1 h2 h3 _ _ _)); iexact HD
          · iexact Hg
        isplitl [Ho]; · iexact Ho
        isplitl [H0]; · iexact H0
        isplitl [H1]; · iexact H1
        isplitl [H2]; · iexact H2
        iexact H3
      · rw [PhiS_castSucc m c t, PhiS_pos m c _ _ hz]
        iintro ⟨⟨⟨HN, HD⟩, Hg⟩, Ho, ⟨%d0, H0⟩, ⟨%d1, H1⟩, ⟨%d2, H2⟩, H3⟩
        iapply ((runA c (grid0.coords t) _ _ _ _ _ _ _ _ _ _ _ _ h1 h2 h3 (iblk m c 0 t) (iblk m c 1 t) (iblk m c 2 t)).2.2 Set.univ _)
        isplitl [H0]; · iexact H0
        isplitl [H1]; · iexact H1
        isplitl [H2]; · iexact H2
        isplitl [HN]; · iexists _; iexact HN
        isplitl [HD]; · iexists _; iexact HD
        iintro ⟨H0, H1, H2, HN, HD⟩
        isplitl [HN HD Hg]
        · isplitr [Hg]
          · isplitl [HN]
            · iapply (owns_of_pieces c _ _ _ (coverA_N c _ _ _ _ _ _ _ _ _ _ _ _ _ h1 h2 h3 _ _ _) (canonA_N c _ _ _ _ _ _ _ _ _ _ _ _ _ h1 h2 h3 _ _ _)); iexact HN
            · iapply (owns_of_pieces c _ _ _ (coverA_D c _ _ _ _ _ _ _ _ _ _ _ _ _ h1 h2 h3 _ _ _) (canonA_D c _ _ _ _ _ _ _ _ _ _ _ _ _ h1 h2 h3 _ _ _)); iexact HD
          · iexact Hg
        isplitl [Ho]; · iexact Ho
        isplitl [H0]; · iexact H0
        isplitl [H1]; · iexact H1
        isplitl [H2]; · iexact H2
        iexact H3
    · have hz : t.val ≠ 0 := fun h => h1 (cond1_of_zero t h)
      rw [accAt_pos m c t hz]
      rw [PhiS_castSucc m c t, PhiS_pos m c _ _ hz]
      by_cases h2 : cond2 (grid0.coords t)
      · unfold numStep denStep; rw [if_pos h2, if_pos h2, if_neg h1, if_neg h1]
        iintro ⟨⟨⟨HN, HD⟩, Hg⟩, Ho, ⟨%d0, H0⟩, ⟨%d1, H1⟩, ⟨%d2, H2⟩, H3⟩
        iapply ((runB c (grid0.coords t) _ _ _ _ _ _ _ _ _ _ _ _ h1 h2 h3 (iblk m c 0 t) (iblk m c 1 t) (iblk m c 2 t) _ _).2.2 Set.univ _)
        isplitl [H0]; · iexact H0
        isplitl [H1]; · iexact H1
        isplitl [H2]; · iexact H2
        isplitl [HN]; · iexact HN
        isplitl [HD]; · iexact HD
        iintro ⟨H0, H1, H2, HN, HD⟩
        isplitl [HN HD Hg]
        · isplitr [Hg]
          · isplitl [HN]
            · iapply (owns_of_pieces c _ _ _ (coverB_N c _ _ _ _ _ _ _ _ _ _ _ _ _ h1 h2 h3 _ _ _ _ _) (canonB_N c _ _ _ _ _ _ _ _ _ _ _ _ _ h1 h2 h3 _ _ _ _ _)); iexact HN
            · iapply (owns_of_pieces c _ _ _ (coverB_D c _ _ _ _ _ _ _ _ _ _ _ _ _ h1 h2 h3 _ _ _ _ _) (canonB_D c _ _ _ _ _ _ _ _ _ _ _ _ _ h1 h2 h3 _ _ _ _ _)); iexact HD
          · iexact Hg
        isplitl [Ho]; · iexact Ho
        isplitl [H0]; · iexact H0
        isplitl [H1]; · iexact H1
        isplitl [H2]; · iexact H2
        iexact H3
      · unfold numStep denStep; rw [if_neg h2, if_neg h2]
        iintro ⟨⟨⟨HN, HD⟩, Hg⟩, Ho, ⟨%d0, H0⟩, ⟨%d1, H1⟩, ⟨%d2, H2⟩, H3⟩
        iapply (runC c (grid0.coords t) _ _ _ _ _ _ _ _ _ _ _ _ h1 h2 h3 Set.univ _)
        isplitl [HN HD Hg]
        · isplitr [Hg]
          · isplitl [HN]; · iexact HN
            iexact HD
          · iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HD⟩, Hg⟩
  isplitl [HN HD]
  · isplitl [HN]
    · iexists _; iexact HN
    · iexists _; iexact HD
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any reading of the floats: the program runs to its end, faults nowhere, and its three argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Coords.lean ====
/-
  A grid point's coordinates as numbers: the point's number is ((batch·8 + head)·8 + query block)·8 + key block, and a
  position of the sequence is its block times 256 plus its row in the block.
-/
import proofs.«137528_j72902774882841_1_alg».proof.Proof.KI.Outs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Batch entry, head, query block and key block of the point numbered `t`. -/
def bOf (t : Fin cfg0.N) : Fin 2 := ⟨t.val / 512, by have : cfg0.N = 1024 := N_0; have := t.isLt; omega⟩
def hOf (t : Fin cfg0.N) : Fin 8 := ⟨t.val / 64 % 8, Nat.mod_lt _ (by decide)⟩
def qiOf (t : Fin cfg0.N) : Fin 8 := ⟨t.val / 8 % 8, Nat.mod_lt _ (by decide)⟩
def kiOf (t : Fin cfg0.N) : Fin 8 := ⟨t.val % 8, Nat.mod_lt _ (by decide)⟩
/-- Row `r` of block `blk` as a position of the sequence. -/
def pos (blk : Fin 8) (r : Fin 256) : Fin 2048 := ⟨blk.val * 256 + r.val, by have := blk.isLt; have := r.isLt; omega⟩
/-- A number as a position (total: taken modulo the length, which changes no number below it). -/
def posN (n : ℕ) : Fin 2048 := ⟨n % 2048, Nat.mod_lt _ (by decide)⟩

theorem posN_val (k : Fin 2048) : posN k.val = k := Fin.ext (Nat.mod_eq_of_lt k.isLt)
theorem posN_block (j : ℕ) (hj : j < 8) (r : Fin 256) : posN (j * 256 + r.val) = pos ⟨j, hj⟩ r :=
  Fin.ext (Nat.mod_eq_of_lt (by have := r.isLt; omega))

theorem cond1_kiOf (t : Fin cfg0.N) : cond1 (grid0.coords t) ↔ (kiOf t).val = 0 := by
  rw [cond1_iff, coords2_val]; rfl
theorem cond2_kiOf (t : Fin cfg0.N) : cond2 (grid0.coords t) ↔ (kiOf t).val ≤ (qiOf t).val := by
  rw [cond2_iff, coords2_val, coords1_val]; rfl
theorem cond3_kiOf (t : Fin cfg0.N) : cond3 (grid0.coords t) ↔ (kiOf t).val = 7 := by
  rw [cond3_iff, coords2_val]; rfl
/-- The words the body computes with are the query-block and key-block numbers. -/
theorem w1_eq (t : Fin cfg0.N) : w1 (grid0.coords t) = BitVec.ofNat 32 (qiOf t).val := by
  unfold w1; rw [coords1_val]; rfl
theorem w2_eq (t : Fin cfg0.N) : w2 (grid0.coords t) = BitVec.ofNat 32 (kiOf t).val := by
  unfold w2; rw [coords2_val]; rfl

/-- The point before one that is not at a first key block: same batch entry, head and query block, the key block before. -/
theorem pred_coords (t : Fin cfg0.N) (h : (kiOf t).val ≠ 0) :
    let t' : Fin cfg0.N := ⟨t.val - 1, Nat.lt_of_le_of_lt (Nat.sub_le _ _) t.isLt⟩
    bOf t' = bOf t ∧ hOf t' = hOf t ∧ qiOf t' = qiOf t ∧ (kiOf t').val + 1 = (kiOf t).val := by
  have hk : t.val % 8 ≠ 0 := h
  refine ⟨Fin.ext ?_, Fin.ext ?_, Fin.ext ?_, ?_⟩
  · show (t.val - 1) / 512 = t.val / 512; omega
  · show (t.val - 1) / 64 % 8 = t.val / 64 % 8; omega
  · show (t.val - 1) / 8 % 8 = t.val / 8 % 8; omega
  · show (t.val - 1) % 8 + 1 = t.val % 8; omega

end Cert.KernelIdeal.Body

end
-- ==== Proof.Taylor.lean ====
/-
  Causal attention with the exponential replaced by its cubic Taylor polynomial, over the extended reals.

  For one batch entry `b` and head `h`, with queries `Q`, keys `K` and values `V` (2048 positions, 64 features):
  the score of query position `i` against key position `j` is the inner product `s = ∑ d, Q i d * K j d`; its weight is
  `1 + s/1 + (s/1)·s/2 + ((s/1)·s/2)·s/3` (the terms built incrementally, each from the one before) when `j ≤ i` and
  `0` when `j > i` (the causal mask); the numerator is `∑ j, weight i j * V j e`, the normaliser `∑ j, weight i j`, and
  the result their quotient with the two infinities replaced by the largest finite numbers of either sign.
  Both programs compute this function; this module only names it.
-/
import Idealize.ShloMosaic.Lib.ValueIdx
import Idealize.ShloMosaic.PureOps.Ideal.Laws

noncomputable section

namespace Cert.Taylor

open Idealize.ShloMosaic Idealize.ShloMosaic.ValueIdx

/-- An argument or result array: batch 2, heads 8, positions 2048, features 64. -/
abbrev S4 : Shape := ⟨4, ![2, 8, 2048, 64]⟩
abbrev Arr4 := S4.Idx → EReal

/-- The cubic Taylor polynomial of the exponential at a score `s`, each term built from the one before:
    `t₁ = (1·s)/1`, `t₂ = (t₁·s)/2`, `t₃ = (t₂·s)/3`, and `((1 + t₁) + t₂) + t₃`. The literals are the words both
    programs print for 1, 2 and 3. -/
def poly (s : EReal) : EReal :=
  ((Ideal.ofBits .f32 0x3F800000#32
      + Ideal.div (Ideal.ofBits .f32 0x3F800000#32 * s) (Ideal.ofBits .f32 0x3F800000#32))
    + Ideal.div (Ideal.div (Ideal.ofBits .f32 0x3F800000#32 * s) (Ideal.ofBits .f32 0x3F800000#32) * s) (Ideal.ofBits .f32 0x40000000#32))
  + Ideal.div (Ideal.div (Ideal.div (Ideal.ofBits .f32 0x3F800000#32 * s) (Ideal.ofBits .f32 0x3F800000#32) * s)
      (Ideal.ofBits .f32 0x40000000#32) * s) (Ideal.ofBits .f32 0x40400000#32)

/-- The score of query position `i` against key position `j`: the inner product over the 64 features. -/
def score (Q K : Arr4) (b : Fin 2) (h : Fin 8) (i j : Fin 2048) : EReal :=
  ∑ d : Fin 64, Q (ix4 b h i d) * K (ix4 b h j d)

/-- The masked weight: the polynomial of the score where the key position is not after the query position, else zero. -/
def weight (Q K : Arr4) (b : Fin 2) (h : Fin 8) (i j : Fin 2048) : EReal :=
  if j.val ≤ i.val then poly (score Q K b h i j) else 0

/-- The numerator: the weighted sum of the values over all 2048 key positions. -/
def num (Q K V : Arr4) (b : Fin 2) (h : Fin 8) (i : Fin 2048) (e : Fin 64) : EReal :=
  ∑ j : Fin 2048, weight Q K b h i j * V (ix4 b h j e)

/-- The normaliser: the sum of the weights over all 2048 key positions. -/
def den (Q K : Arr4) (b : Fin 2) (h : Fin 8) (i : Fin 2048) : EReal :=
  ∑ j : Fin 2048, weight Q K b h i j

/-- The infinities replaced by the largest finite numbers: `+∞ ↦ 0x7F7FFFFF`, then `-∞ ↦ 0xFF7FFFFF`
    (there is no not-a-number among the extended reals, so that guard of the source is not here). -/
def clamp (x : EReal) : EReal :=
  Scalar.select
    (Ideal.cmp .oeq
      (Scalar.select (Ideal.cmp .oeq x (Ideal.ofBits .f32 0x7F800000#32)) (Ideal.ofBits .f32 0x7F7FFFFF#32) x)
      (Ideal.ofBits .f32 0xFF800000#32))
    (Ideal.ofBits .f32 0xFF7FFFFF#32)
    (Scalar.select (Ideal.cmp .oeq x (Ideal.ofBits .f32 0x7F800000#32)) (Ideal.ofBits .f32 0x7F7FFFFF#32) x)

/-- The result at batch `b`, head `h`, position `i`, feature `e`. -/
def outAt (Q K V : Arr4) (b : Fin 2) (h : Fin 8) (i : Fin 2048) (e : Fin 64) : EReal :=
  clamp (Ideal.div (num Q K V b h i e) (den Q K b h i))

/-- The whole result array, index by index. -/
def result (Q K V : Arr4) : Arr4 :=
  fun x => outAt Q K V (x 0) (x 1) (x 2) (x 3)

/-- A comparison of an extended real with itself for inequality is false: the source's not-a-number guard never fires. -/
theorem cmp_ne_self (x : EReal) : Ideal.cmp .one x x = 0#1 ∧ Ideal.cmp .une x x = 0#1 := by
  constructor <;> simp [Ideal.cmp]

end Cert.Taylor

end
-- ==== Proof.KI.Args.lean ====
/-
  The three argument arrays, as the extended-real arrays the mathematics is stated over.
-/
import proofs.«137528_j72902774882841_1_alg».proof.Proof.KI.Coords
import proofs.«137528_j72902774882841_1_alg».proof.Proof.Taylor

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Queries, keys and values: the program's three arguments as launched on core `c`. -/
abbrev Qa (c : Dev nD) : Cert.Taylor.Arr4 := m ((c.tc : Thread nD τ).loc main_arg0)
abbrev Ka (c : Dev nD) : Cert.Taylor.Arr4 := m ((c.tc : Thread nD τ).loc main_arg1)
abbrev Va (c : Dev nD) : Cert.Taylor.Arr4 := m ((c.tc : Thread nD τ).loc main_arg2)

end Cert.KernelIdeal.Body

end
-- ==== Proof.KI.Blocks.lean ====
/-
  The three input blocks at a point, entry by entry: the query block holds rows `qi·256 + r` of the point's batch entry and
  head, the key and value blocks rows `ki·256 + r` (each array first regrouped from batch × head to one axis of 16, row-major).
-/
import proofs.«137528_j72902774882841_1_alg».proof.Proof.KI.Args
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The regrouped queries as the region finds them: the argument with batch and head merged into one axis of 16. -/
theorem V_v0 (c : Dev nD) :
    (V (F := Ideal) m c main_v0 : S16x2048x64.Idx → EReal)
      = shapeCast S16x2048x64 (m ((c.tc : Thread nD τ).loc main_arg0)) shapeCasts_S2x8x2048x64_S16x2048x64 := by
  show StableHlo.after hostOps0 (fun b => m (c, b)) (Proc.devRef .tc main_v0) = _
  after_results
  rfl

/-- Entry (g, p, d) of a regrouped array is entry (b, h, p, d) of the array it regroups, where g = b·8 + h: the two
    have the same row-major position. -/
theorem regroup_apply (x : S2x8x2048x64.Idx → EReal) (g : Fin 16) (b : Fin 2) (h : Fin 8) (hg : g.val = b.val * 8 + h.val)
    (p : Fin 2048) (d : Fin 64) :
    shapeCast S16x2048x64 x shapeCasts_S2x8x2048x64_S16x2048x64 (ix3 g p d) = x (ix4 b h p d) := by
  refine shapeCast_apply x shapeCasts_S2x8x2048x64_S16x2048x64 (ix3 g p d) (ix4 b h p d) ?_
  rw [Shape.rowMajor_val_four, Shape.rowMajor_val_three]
  show ((b.val * 8 + h.val) * 2048 + p.val) * 64 + d.val = (g.val * 2048 + p.val) * 64 + d.val
  rw [hg]

/-- The merged batch-and-head coordinate of the point numbered t. -/
def gOf (t : Fin cfg0.N) : Fin 16 := ⟨t.val / 64, by have : cfg0.N = 1024 := N_0; have := t.isLt; omega⟩

theorem gOf_eq (t : Fin cfg0.N) : (gOf t).val = (bOf t).val * 8 + (hOf t).val := by
  show t.val / 64 = t.val / 512 * 8 + t.val / 64 % 8
  omega

/-- Window 0's block index at the point numbered t: (batch·8 + head, query block, 0). -/
theorem idx0 : ∀ t : Fin cfg0.N, win0_0.index t (0 : Fin 3) = t.val / 64 ∧ win0_0.index t (1 : Fin 3) = t.val / 8 % 8
    ∧ win0_0.index t (2 : Fin 3) = 0 :=
  (by decide +kernel : ∀ t : Fin grid0.N, _)

/-- Row r, feature d of window 0's block at t sits in the regrouped array at (batch·8 + head, query block·256 + r, d). -/
theorem emb0 (t : Fin cfg0.N) (r : Fin 256) (d : Fin 64) :
    ((cfg0.win 0).blk t).view.emb (ix3 (0 : Fin 1) r d) = ix3 (gOf t) (pos (qiOf t) r) d := by
  obtain ⟨e0, e1, e2⟩ := idx0 t
  funext a; apply Fin.ext
  match a with
  | ⟨0, _⟩ => show win0_0.index t (0 : Fin 3) * 1 + 1 * 0 = t.val / 64; omega
  | ⟨1, _⟩ => show win0_0.index t (1 : Fin 3) * 256 + 1 * r.val = t.val / 8 % 8 * 256 + r.val; omega
  | ⟨2, _⟩ => show win0_0.index t (2 : Fin 3) * 64 + 1 * d.val = d.val; omega

theorem iblk0_apply (c : Dev nD) (t : Fin cfg0.N) (r : Fin 256) (d : Fin 64) :
    iblk (F := Ideal) m c 0 t (ix3 (0 : Fin 1) r d) = Qa m c (ix4 (bOf t) (hOf t) (pos (qiOf t) r) d) := by
  show V (F := Ideal) m c main_v0 (((cfg0.win 0).blk t).view.emb (ix3 (0 : Fin 1) r d)) = _
  rw [emb0]
  refine (congrFun (V_v0 m c) _).trans ?_
  exact regroup_apply _ (gOf t) (bOf t) (hOf t) (gOf_eq t) _ _

/-- The regrouped keys as the region finds them. -/
theorem V_v1 (c : Dev nD) :
    (V (F := Ideal) m c main_v1 : S16x2048x64.Idx → EReal)
      = shapeCast S16x2048x64 (m ((c.tc : Thread nD τ).loc main_arg1)) shapeCasts_S2x8x2048x64_S16x2048x64 := by
  show StableHlo.after hostOps0 (fun b => m (c, b)) (Proc.devRef .tc main_v1) = _
  after_results
  rfl

/-- Window 1's block index at the point numbered t: (batch·8 + head, key block, 0). -/
theorem idx1 : ∀ t : Fin cfg0.N, win0_1.index t (0 : Fin 3) = t.val / 64 ∧ win0_1.index t (1 : Fin 3) = t.val % 8
    ∧ win0_1.index t (2 : Fin 3) = 0 :=
  (by decide +kernel : ∀ t : Fin grid0.N, _)

/-- Row r, feature d of window 1's block at t sits in the regrouped array at (batch·8 + head, key block·256 + r, d). -/
theorem emb1 (t : Fin cfg0.N) (r : Fin 256) (d : Fin 64) :
    ((cfg0.win 1).blk t).view.emb (ix3 (0 : Fin 1) r d) = ix3 (gOf t) (pos (kiOf t) r) d := by
  obtain ⟨e0, e1, e2⟩ := idx1 t
  funext a; apply Fin.ext
  match a with
  | ⟨0, _⟩ => show win0_1.index t (0 : Fin 3) * 1 + 1 * 0 = t.val / 64; omega
  | ⟨1, _⟩ => show win0_1.index t (1 : Fin 3) * 256 + 1 * r.val = t.val % 8 * 256 + r.val; omega
  | ⟨2, _⟩ => show win0_1.index t (2 : Fin 3) * 64 + 1 * d.val = d.val; omega

theorem iblk1_apply (c : Dev nD) (t : Fin cfg0.N) (r : Fin 256) (d : Fin 64) :
    iblk (F := Ideal) m c 1 t (ix3 (0 : Fin 1) r d) = Ka m c (ix4 (bOf t) (hOf t) (pos (kiOf t) r) d) := by
  show V (F := Ideal) m c main_v1 (((cfg0.win 1).blk t).view.emb (ix3 (0 : Fin 1) r d)) = _
  rw [emb1]
  refine (congrFun (V_v1 m c) _).trans ?_
  exact regroup_apply _ (gOf t) (bOf t) (hOf t) (gOf_eq t) _ _

/-- The regrouped values as the region finds them. -/
theorem V_v2 (c : Dev nD) :
    (V (F := Ideal) m c main_v2 : S16x2048x64.Idx → EReal)
      = shapeCast S16x2048x64 (m ((c.tc : Thread nD τ).loc main_arg2)) shapeCasts_S2x8x2048x64_S16x2048x64 := by
  show StableHlo.after hostOps0 (fun b => m (c, b)) (Proc.devRef .tc main_v2) = _
  after_results
  rfl

/-- Window 2's block index at the point numbered t: (batch·8 + head, key block, 0). -/
theorem idx2 : ∀ t : Fin cfg0.N, win0_2.index t (0 : Fin 3) = t.val / 64 ∧ win0_2.index t (1 : Fin 3) = t.val % 8
    ∧ win0_2.index t (2 : Fin 3) = 0 :=
  (by decide +kernel : ∀ t : Fin grid0.N, _)

/-- Row r, feature d of window 2's block at t sits in the regrouped array at (batch·8 + head, key block·256 + r, d). -/
theorem emb2 (t : Fin cfg0.N) (r : Fin 256) (d : Fin 64) :
    ((cfg0.win 2).blk t).view.emb (ix3 (0 : Fin 1) r d) = ix3 (gOf t) (pos (kiOf t) r) d := by
  obtain ⟨e0, e1, e2⟩ := idx2 t
  funext a; apply Fin.ext
  match a with
  | ⟨0, _⟩ => show win0_2.index t (0 : Fin 3) * 1 + 1 * 0 = t.val / 64; omega
  | ⟨1, _⟩ => show win0_2.index t (1 : Fin 3) * 256 + 1 * r.val = t.val % 8 * 256 + r.val; omega
  | ⟨2, _⟩ => show win0_2.index t (2 : Fin 3) * 64 + 1 * d.val = d.val; omega

theorem iblk2_apply (c : Dev nD) (t : Fin cfg0.N) (r : Fin 256) (d : Fin 64) :
    iblk (F := Ideal) m c 2 t (ix3 (0 : Fin 1) r d) = Va m c (ix4 (bOf t) (hOf t) (pos (kiOf t) r) d) := by
  show V (F := Ideal) m c main_v2 (((cfg0.win 2).blk t).view.emb (ix3 (0 : Fin 1) r d)) = _
  rw [emb2]
  refine (congrFun (V_v2 m c) _).trans ?_
  exact regroup_apply _ (gOf t) (bOf t) (hOf t) (gOf_eq t) _ _

end Cert.KernelIdeal.Body

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Payload.lean ====
/-
  The kernel body's values, read at one index.

  One grid point `(b·h, qi, ki)` of the kernel holds a block of 256 query rows (block number `qi`) and a block of 256
  key/value rows (block number `ki`) of one batch entry and head, each row of 64 features, and two accumulators: a
  `256 × 64` numerator and a `256 × 1` normaliser. This module says what each pure value the body stores is at an index,
  over the extended reals:
  • the two resets are zero everywhere;
  • the weight block at `(r, c)` is the cubic polynomial of the inner product of query row `r` and key row `c` when the
    key's position `ki·256 + c` is not after the query's position `qi·256 + r`, and zero otherwise — the comparison is
    made on signed 32-bit words, all below 4096, so it is the comparison of the positions;
  • the numerator's update adds, at `(r, e)`, the sum over the 256 key rows `c` of weight `(r, c)` times value `(c, e)`;
  • the normaliser's update adds, at row `r`, the sum over `c` of weight `(r, c)`;
  • the result block at `(r, e)` is the numerator over the normaliser of row `r`, with the two infinities clamped; the
    source's guard against a not-a-number never fires on the extended reals.
  A change of float format is the identity here, so the product of the weights with the values is the plain sum.
-/
import proofs.«137528_j72902774882841_1_alg».proof.Proof.Gen.KernelIdeal.Skeleton
import proofs.«137528_j72902774882841_1_alg».proof.Proof.Taylor
import proofs.«137528_j72902774882841_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.PayloadAt

open Idealize.ShloMosaic Idealize.ShloMosaic.ValueIdx Cert.KernelIdeal Cert.KernelIdeal.Gen

variable [Cert.KernelIdeal.Facts]

/-! ## The resets and the stored accumulator -/

/-- The numerator's reset is zero at every entry. -/
theorem pay1_apply (r : Fin 256) (e : Fin 64) : k0_pay1 (F := Ideal) (ix2 r e) = 0 := by
  unfold k0_pay1
  rw [shapeCast_self]
  exact Ideal.ofBits_zero_f32

/-- The normaliser's reset is zero at every row. -/
theorem pay2_apply (r : Fin 256) : k0_pay2 (F := Ideal) (ix2 r (0 : Fin 1)) = 0 := by
  unfold k0_pay2
  rw [shapeCast_self]
  exact Ideal.ofBits_zero_f32

/-- The numerator is stored back as it was computed. -/
theorem pay3_eq (v : FVec Ideal S256x64 .f32) : k0_pay3 v = v := by
  unfold k0_pay3
  exact shapeCast_self _ _

/-! ## Layout forms not in the library: a trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

theorem dotQK_eq : dot_S256x64_S64x256_S256x256_1_0_0_1_n_n = DotDims.plain 256 64 256 := rfl
theorem dotPV_eq : dot_S256x256_S256x64_S256x64_1_0_0_1_n_n = DotDims.plain 256 256 64 := rfl

/-- The score block: the product of the query block with the transposed key block, entry `(r, c)`, is the inner
    product of query row `r` and key row `c` over the 64 features. -/
theorem score_apply (x0 x1 : FVec Ideal S1x256x64 .f32) (h0 h1 : S1x256x64.ShapeCasts S256x64)
    (ht : S256x64.Transposes [1, 0] S64x256) (r c : Fin 256) :
    matmul (F := Ideal) dot_S256x64_S64x256_S256x256_1_0_0_1_n_n (some .fp32) (shapeCast S256x64 x0 h0)
        (transpose S64x256 [1, 0] (shapeCast S256x64 x1 h1) ht) (constant (F := Ideal) S256x256 .f32 0x00000000#32) (ix2 r c)
      = ∑ d : Fin 64, x0 (ix3 (0 : Fin 1) r d) * x1 (ix3 (0 : Fin 1) c d) := by
  rw [dotQK_eq]
  refine (Cert.Lib.PlainDot.matmul_zero_apply (some .fp32) _ _ r c).trans ?_
  refine Finset.sum_congr rfl fun d _ => ?_
  rw [shapeCast_1ab_ab_apply, transpose_ix2_apply, shapeCast_1ab_ab_apply]

/-! ## The causal mask: a comparison of small signed words is the comparison of the positions -/

/-- The word `q · 256 + r` for a block number `q < 8` and a row `r < 256` is that number. -/
theorem word_toNat (q : Fin 8) (r : Fin 256) :
    (IntOp.addi (Scalar.muli (BitVec.ofNat 32 q.val) 256#32) (BitVec.ofNat 32 r.val)).toNat = q.val * 256 + r.val := by
  unfold IntOp.addi Scalar.muli IntOp.muli
  simp only [BitVec.toNat_add, BitVec.toNat_mul, BitVec.toNat_ofNat]
  have := q.isLt; have := r.isLt
  omega

/-- A select on the signed comparison "query position ≥ key position" of two such words is the `if` on the positions. -/
theorem mask_select {α : Type} (qi ki : Fin 8) (r c : Fin 256) (A B : α) :
    Scalar.select (IntOp.cmpi .sge (IntOp.addi (Scalar.muli (BitVec.ofNat 32 qi.val) 256#32) (BitVec.ofNat 32 r.val))
        (IntOp.addi (Scalar.muli (BitVec.ofNat 32 ki.val) 256#32) (BitVec.ofNat 32 c.val))) A B
      = if ki.val * 256 + c.val ≤ qi.val * 256 + r.val then A else B := by
  have ha := word_toNat qi r
  have hb := word_toNat ki c
  have hq := qi.isLt; have hk := ki.isLt; have hr := r.isLt; have hc := c.isLt
  have h := StableHlo.Predicate.sge_iff_toNat
    (a := IntOp.addi (Scalar.muli (BitVec.ofNat 32 qi.val) 256#32) (BitVec.ofNat 32 r.val))
    (b := IntOp.addi (Scalar.muli (BitVec.ofNat 32 ki.val) 256#32) (BitVec.ofNat 32 c.val))
    (by rw [ha]; omega) (by rw [hb]; omega)
  rw [ha, hb] at h
  unfold Scalar.select
  exact if_congr h rfl rfl

theorem cmpi_apply {s : Shape} {w : Nat} (p : CmpIPredicate) (a b : IVec s w) (i : s.Idx) : cmpi p a b i = IntOp.cmpi p (a i) (b i) := rfl
theorem addi_apply {s : Shape} {w : Nat} (a b : IVec s w) (i : s.Idx) : addi a b i = IntOp.addi (a i) (b i) := rfl

/-! ## The body's values at an index -/

theorem pay6_apply (qi ki : Fin 8) (x0 x1 : Vec Ideal S1x256x64 .f32) (r c : Fin 256) :
    k0_pay6 (F := Ideal) (BitVec.ofNat 32 qi.val) (BitVec.ofNat 32 ki.val) x0 x1 (ix2 r c)
      = if ki.val * 256 + c.val ≤ qi.val * 256 + r.val then Cert.Taylor.poly (∑ d : Fin 64, x0 (ix3 (0 : Fin 1) r d) * x1 (ix3 (0 : Fin 1) c d)) else 0 := by
  unfold k0_pay6
  simp only [select_apply, cmpi_apply, addi_apply, addf_apply, mulf_apply, divf_apply, broadcast_apply, iota_single_apply, score_apply]
  have e0 : ∀ h : S256x256.Iotas .tc 32 [0], iota Kind.tc S256x256 32 [0] h (ix2 r c) = BitVec.ofNat 32 r.val :=
    fun h => iota_single_apply _ _ _ _ h _
  have e1 : ∀ h : S256x256.Iotas .tc 32 [1], iota Kind.tc S256x256 32 [1] h (ix2 r c) = BitVec.ofNat 32 c.val :=
    fun h => iota_single_apply _ _ _ _ h _
  have es := score_apply x0 x1 Facts₀.shapeCasts_S1x256x64_S256x64 Facts₀.shapeCasts_S1x256x64_S256x64 Facts₀.transposes_S256x64_p1_0_S64x256 r c
  rw [e0, e1, es, mask_select]
  unfold Cert.Taylor.poly
  exact if_congr Iff.rfl rfl Ideal.ofBits_zero_f32

/-- The weighted values: the product of the weight block (its format changed, which is the identity on the extended
    reals) with the value block, added to what the accumulator held. -/
theorem pay7_apply (a1 a2 : BitVec 32) (x0 x1 x2 : Vec Ideal S1x256x64 .f32) (s0 : Vec Ideal S256x64 .f32) (r : Fin 256) (e : Fin 64) :
    k0_pay7 (F := Ideal) a1 a2 x0 x1 x2 s0 (ix2 r e)
      = s0 (ix2 r e) + ∑ c : Fin 256, k0_pay6 (F := Ideal) a1 a2 x0 x1 (ix2 r c) * x2 (ix3 (0 : Fin 1) c e) := by
  unfold k0_pay7
  simp only [addf_apply]
  refine congrArg (s0 (ix2 r e) + ·) ?_
  rw [dotPV_eq]
  refine (Cert.Lib.PlainDot.matmul_zero_apply none _ _ r e).trans ?_
  refine Finset.sum_congr rfl fun c _ => ?_
  rw [truncf_apply, truncf_apply, shapeCast_1ab_ab_apply]

/-- The normaliser's update: the lane sum of the weight block's row, added to what the accumulator held. -/
theorem pay4_apply (w : FVec Ideal S256x256 .f32) (s1 : Vec Ideal S256x1 .f32) (r : Fin 256) :
    k0_pay4 (F := Ideal) w s1 (ix2 r (0 : Fin 1)) = s1 (ix2 r (0 : Fin 1)) + ∑ c : Fin 256, w (ix2 r c) := by
  unfold k0_pay4
  rw [shapeCast_self]
  simp only [addf_apply]
  refine congrArg (s1 (ix2 r (0 : Fin 1)) + ·) ?_
  refine (shapeCast_a_a1_apply _ _ r (0 : Fin 1)).trans ?_
  refine (Ideal.multiReduction_add_single w 0x00000000#32 Facts₀.reduces_S256x256_S256 _ _ (ix1 r)).trans ?_
  refine Finset.sum_congr rfl fun c _ => congrArg w ?_
  funext a
  match a with
  | ⟨0, _⟩ => rfl
  | ⟨1, _⟩ => rfl

/-- The result block: the accumulated numerator over the accumulated normaliser, the infinities clamped. -/
theorem pay5_apply (s0 : Vec Ideal S256x64 .f32) (s1 : Vec Ideal S256x1 .f32) (r : Fin 256) (e : Fin 64) :
    k0_pay5 (F := Ideal) s0 s1 (ix3 (0 : Fin 1) r e) = Cert.Taylor.clamp (Ideal.div (s0 (ix2 r e)) (s1 (ix2 r (0 : Fin 1)))) := by
  unfold k0_pay5
  rw [shapeCast_ab_1ab_apply]
  simp only [select_apply, cmpf_apply, divf_apply, broadcast_apply]
  rw [broadcastTo_a1_ab_apply]
  have hn : FloatOps.cmpf (F := Ideal) (φ := .f32) .one (Ideal.div (s0 (ix2 r e)) (s1 (ix2 r (0 : Fin 1)))) (Ideal.div (s0 (ix2 r e)) (s1 (ix2 r (0 : Fin 1)))) = 0#1 :=
    (Cert.Taylor.cmp_ne_self _).1
  rw [hn, select_zero]
  rfl

end Cert.KernelIdeal.PayloadAt

end
-- ==== Proof.BlockSums.lean ====
/-
  Sums over the 2048 key positions, cut into the 8 blocks of 256 the kernel visits.

  A sum over the positions `k < 2048` is the sum over the block numbers `j < 8` of the sums over the places `c < 256`
  of the terms at position `j · 256 + c`; the sum over the first `n + 1` blocks is the sum over the first `n` plus the
  block `n`; and a block strictly after the query's block lies wholly after the query's position, so the causal mask
  is off on all of it and its terms, weights that are zero, add nothing.
-/
import proofs.«137528_j72902774882841_1_alg».proof.Proof.Taylor
import Mathlib.Algebra.BigOperators.Group.Finset.Basic
import Mathlib.Data.Fintype.BigOperators

noncomputable section

namespace Cert.Taylor

variable {M : Type*} [AddCommMonoid M]

/-- `a` consecutive runs of `b` terms are the first `a · b` terms. -/
theorem sum_range_mul (f : ℕ → M) (a b : ℕ) :
    ∑ j ∈ Finset.range a, ∑ c ∈ Finset.range b, f (j * b + c) = ∑ k ∈ Finset.range (a * b), f k := by
  induction a with
  | zero => simp
  | succ a ih => rw [Finset.sum_range_succ, ih, Nat.succ_mul, Finset.sum_range_add]

/-- The sum over the 2048 positions, block by block: 8 blocks of 256. -/
theorem sum_blocks (f : ℕ → M) :
    ∑ j ∈ Finset.range 8, ∑ c : Fin 256, f (j * 256 + c.val) = ∑ k : Fin 2048, f k.val := by
  rw [Fin.sum_univ_eq_sum_range (fun k => f k) 2048, show (2048 : ℕ) = 8 * 256 from rfl, ← sum_range_mul]
  exact Finset.sum_congr rfl fun j _ => Fin.sum_univ_eq_sum_range (fun c => f (j * 256 + c)) 256

/-- The blocks up to and including block `n`: those before it, then block `n`. -/
theorem sum_range_succ_blocks (f : ℕ → M) (n : ℕ) :
    ∑ j ∈ Finset.range (n + 1), ∑ c : Fin 256, f (j * 256 + c.val)
      = (∑ j ∈ Finset.range n, ∑ c : Fin 256, f (j * 256 + c.val)) + ∑ c : Fin 256, f (n * 256 + c.val) :=
  Finset.sum_range_succ _ n

/-- A key block strictly after the query's block: every one of its positions is after the query's position. -/
theorem masked_block_zero (qi ki : ℕ) (h : qi < ki) (r c : Fin 256) : ¬ (ki * 256 + c.val ≤ qi * 256 + r.val) := by
  have := r.isLt
  omega

/-- Adding only the blocks up to the query's own is adding all of them, when the later ones are zero. -/
theorem sum_blocks_upto (qi : ℕ) (B : ℕ → M) (hB : ∀ ki, qi < ki → B ki = 0) (n : ℕ) :
    ∑ ki ∈ Finset.range n, (if ki ≤ qi then B ki else 0) = ∑ ki ∈ Finset.range n, B ki := by
  refine Finset.sum_congr rfl fun ki _ => ?_
  split
  · rfl
  · exact (hB ki (by omega)).symm

/-- A block of masked weights strictly after the query's block sums to zero against any values. -/
theorem masked_block_sum_zero (qi ki : ℕ) (h : qi < ki) (r : Fin 256) (p v : Fin 256 → EReal) :
    ∑ c : Fin 256, (if ki * 256 + c.val ≤ qi * 256 + r.val then p c else 0) * v c = 0 :=
  Finset.sum_eq_zero fun c _ => by rw [if_neg (masked_block_zero qi ki h r c), zero_mul]

/-- The same for the weights alone. -/
theorem masked_block_weight_zero (qi ki : ℕ) (h : qi < ki) (r : Fin 256) (p : Fin 256 → EReal) :
    ∑ c : Fin 256, (if ki * 256 + c.val ≤ qi * 256 + r.val then p c else 0) = 0 :=
  Finset.sum_eq_zero fun c _ => if_neg (masked_block_zero qi ki h r c)

end Cert.Taylor

end
-- ==== Proof.KI.Invariant.lean ====
/-
  The accumulators are the partial sums of the numerator and the normaliser.

  After the body at the point of query block `qi` and key block `ki`, row `r` of the numerator's accumulator holds the
  weighted sum of the values over the key positions of blocks `0 … ki`, and the normaliser's the sum of the weights over
  them: a contributing block adds exactly its 256 terms, and a block after the query block, which the body skips, has all
  its weights zero (the causal mask), so skipping it adds the same nothing. At the last key block the sums run over all
  2048 positions and the stored quotient is the result.
-/
import proofs.«137528_j72902774882841_1_alg».proof.Proof.KI.Blocks
import proofs.«137528_j72902774882841_1_alg».proof.Proof.Payload
import proofs.«137528_j72902774882841_1_alg».proof.Proof.BlockSums

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## One block's terms -/

section Step

variable (Q K V : Cert.Taylor.Arr4) (b : Fin 2) (h : Fin 8) (qi ki : Fin 8)

/-- The weight block's entry `(r, cc)` is the masked weight of query position `qi·256 + r` against key position
    `ki·256 + cc`, when the two blocks hold those rows of the queries and the keys. -/
theorem pay6_weight (x0 x1 : Vec Ideal S1x256x64 .f32)
    (hx0 : ∀ (r : Fin 256) (d : Fin 64), x0 (ix3 (0 : Fin 1) r d) = Q (ix4 b h (pos qi r) d))
    (hx1 : ∀ (r : Fin 256) (d : Fin 64), x1 (ix3 (0 : Fin 1) r d) = K (ix4 b h (pos ki r) d))
    (r cc : Fin 256) :
    k0_pay6 (F := Ideal) (BitVec.ofNat 32 qi.val) (BitVec.ofNat 32 ki.val) x0 x1 (ix2 r cc)
      = Cert.Taylor.weight Q K b h (pos qi r) (posN (ki.val * 256 + cc.val)) := by
  rw [PayloadAt.pay6_apply, posN_block ki.val ki.isLt cc]
  unfold Cert.Taylor.weight Cert.Taylor.score
  simp only [hx0, hx1]
  rfl

/-- A key block strictly after the query block: every weight in it is zero. -/
theorem weight_block_zero (hlt : qi.val < ki.val) (r cc : Fin 256) :
    Cert.Taylor.weight Q K b h (pos qi r) (posN (ki.val * 256 + cc.val)) = 0 := by
  rw [posN_block ki.val ki.isLt cc]
  unfold Cert.Taylor.weight
  exact if_neg (Cert.Taylor.masked_block_zero qi.val ki.val hlt r cc)

/-- The numerator's accumulator after one point, when before it held the sum over the earlier key blocks: the sum
    over the key blocks up to this one. -/
theorem numStep_apply (i : grid0.Coords)
    (hw1 : w1 i = BitVec.ofNat 32 qi.val) (hw2 : w2 i = BitVec.ofNat 32 ki.val)
    (hc1 : cond1 i ↔ ki.val = 0) (hc2 : cond2 i ↔ ki.val ≤ qi.val)
    (x0 x1 x2 : Vec Ideal S1x256x64 .f32)
    (hx0 : ∀ (r : Fin 256) (d : Fin 64), x0 (ix3 (0 : Fin 1) r d) = Q (ix4 b h (pos qi r) d))
    (hx1 : ∀ (r : Fin 256) (d : Fin 64), x1 (ix3 (0 : Fin 1) r d) = K (ix4 b h (pos ki r) d))
    (hx2 : ∀ (r : Fin 256) (d : Fin 64), x2 (ix3 (0 : Fin 1) r d) = V (ix4 b h (pos ki r) d))
    (s0 : Vec Ideal S256x64 .f32) (r : Fin 256) (e : Fin 64)
    (hs0 : ki.val ≠ 0 → s0 (ix2 r e) = ∑ j ∈ Finset.range ki.val, ∑ cc : Fin 256,
        Cert.Taylor.weight Q K b h (pos qi r) (posN (j * 256 + cc.val)) * V (ix4 b h (posN (j * 256 + cc.val)) e)) :
    numStep (F := Ideal) i x0 x1 x2 s0 (ix2 r e)
      = ∑ j ∈ Finset.range (ki.val + 1), ∑ cc : Fin 256,
          Cert.Taylor.weight Q K b h (pos qi r) (posN (j * 256 + cc.val)) * V (ix4 b h (posN (j * 256 + cc.val)) e) := by
  rw [Finset.sum_range_succ]
  unfold numStep
  by_cases h2 : cond2 i
  · rw [if_pos h2, PayloadAt.pay3_eq, hw1, hw2, PayloadAt.pay7_apply]
    have hblk : ∀ cc : Fin 256, k0_pay6 (F := Ideal) (BitVec.ofNat 32 qi.val) (BitVec.ofNat 32 ki.val) x0 x1 (ix2 r cc) * x2 (ix3 (0 : Fin 1) cc e)
        = Cert.Taylor.weight Q K b h (pos qi r) (posN (ki.val * 256 + cc.val)) * V (ix4 b h (posN (ki.val * 256 + cc.val)) e) := fun cc => by
      rw [pay6_weight Q K b h qi ki x0 x1 hx0 hx1 r cc, hx2, posN_block ki.val ki.isLt cc]
    rw [Finset.sum_congr rfl fun cc _ => hblk cc]
    refine congrArg (· + _) ?_
    by_cases h1 : cond1 i
    · rw [if_pos h1, PayloadAt.pay1_apply, hc1.mp h1, Finset.sum_range_zero]
    · rw [if_neg h1]; exact hs0 (fun hk => h1 (hc1.mpr hk))
  · have hlt : qi.val < ki.val := Nat.lt_of_not_le (fun hle => h2 (hc2.mpr hle))
    rw [if_neg h2, hs0 (by omega)]
    rw [Finset.sum_eq_zero (s := (Finset.univ : Finset (Fin 256))) fun cc _ => by rw [weight_block_zero Q K b h qi ki hlt r cc, zero_mul], add_zero]

/-- The normaliser's accumulator likewise. -/
theorem denStep_apply (i : grid0.Coords)
    (hw1 : w1 i = BitVec.ofNat 32 qi.val) (hw2 : w2 i = BitVec.ofNat 32 ki.val)
    (hc1 : cond1 i ↔ ki.val = 0) (hc2 : cond2 i ↔ ki.val ≤ qi.val)
    (x0 x1 : Vec Ideal S1x256x64 .f32)
    (hx0 : ∀ (r : Fin 256) (d : Fin 64), x0 (ix3 (0 : Fin 1) r d) = Q (ix4 b h (pos qi r) d))
    (hx1 : ∀ (r : Fin 256) (d : Fin 64), x1 (ix3 (0 : Fin 1) r d) = K (ix4 b h (pos ki r) d))
    (s1 : Vec Ideal S256x1 .f32) (r : Fin 256)
    (hs1 : ki.val ≠ 0 → s1 (ix2 r (0 : Fin 1)) = ∑ j ∈ Finset.range ki.val, ∑ cc : Fin 256,
        Cert.Taylor.weight Q K b h (pos qi r) (posN (j * 256 + cc.val))) :
    denStep (F := Ideal) i x0 x1 s1 (ix2 r (0 : Fin 1))
      = ∑ j ∈ Finset.range (ki.val + 1), ∑ cc : Fin 256,
          Cert.Taylor.weight Q K b h (pos qi r) (posN (j * 256 + cc.val)) := by
  rw [Finset.sum_range_succ]
  unfold denStep
  by_cases h2 : cond2 i
  · rw [if_pos h2, hw1, hw2, PayloadAt.pay4_apply]
    rw [Finset.sum_congr rfl fun cc _ => pay6_weight Q K b h qi ki x0 x1 hx0 hx1 r cc]
    refine congrArg (· + _) ?_
    by_cases h1 : cond1 i
    · rw [if_pos h1, PayloadAt.pay2_apply, hc1.mp h1, Finset.sum_range_zero]
    · rw [if_neg h1]; exact hs1 (fun hk => h1 (hc1.mpr hk))
  · have hlt : qi.val < ki.val := Nat.lt_of_not_le (fun hle => h2 (hc2.mpr hle))
    rw [if_neg h2, hs1 (by omega)]
    rw [Finset.sum_eq_zero (s := (Finset.univ : Finset (Fin 256))) fun cc _ => weight_block_zero Q K b h qi ki hlt r cc, add_zero]

end Step

/-! ## The accumulators at every point -/

theorem num_inv (c : Dev nD) (t : Fin cfg0.N) (r : Fin 256) (e : Fin 64) :
    (accAt (F := Ideal) m c t.val t.isLt).1 (ix2 r e)
      = ∑ j ∈ Finset.range ((kiOf t).val + 1), ∑ cc : Fin 256,
          Cert.Taylor.weight (Qa m c) (Ka m c) (bOf t) (hOf t) (pos (qiOf t) r) (posN (j * 256 + cc.val))
            * Va m c (ix4 (bOf t) (hOf t) (posN (j * 256 + cc.val)) e) := by
  obtain ⟨n, hn⟩ := t
  induction n with
  | zero =>
    exact numStep_apply (Qa m c) (Ka m c) (Va m c) (bOf ⟨0, hn⟩) (hOf ⟨0, hn⟩) (qiOf ⟨0, hn⟩) (kiOf ⟨0, hn⟩) (grid0.coords ⟨0, hn⟩)
      (w1_eq ⟨0, hn⟩) (w2_eq ⟨0, hn⟩) (cond1_kiOf ⟨0, hn⟩) (cond2_kiOf ⟨0, hn⟩)
      (iblk m c 0 ⟨0, hn⟩) (iblk m c 1 ⟨0, hn⟩) (iblk m c 2 ⟨0, hn⟩)
      (iblk0_apply m c ⟨0, hn⟩) (iblk1_apply m c ⟨0, hn⟩) (iblk2_apply m c ⟨0, hn⟩)
      (k0_pay1 (F := Ideal)) r e (fun hk => absurd rfl hk)
  | succ n ih =>
    have hn' : n < cfg0.N := Nat.lt_of_succ_lt hn
    refine numStep_apply (Qa m c) (Ka m c) (Va m c) (bOf ⟨n + 1, hn⟩) (hOf ⟨n + 1, hn⟩) (qiOf ⟨n + 1, hn⟩) (kiOf ⟨n + 1, hn⟩) (grid0.coords ⟨n + 1, hn⟩)
      (w1_eq ⟨n + 1, hn⟩) (w2_eq ⟨n + 1, hn⟩) (cond1_kiOf ⟨n + 1, hn⟩) (cond2_kiOf ⟨n + 1, hn⟩)
      (iblk m c 0 ⟨n + 1, hn⟩) (iblk m c 1 ⟨n + 1, hn⟩) (iblk m c 2 ⟨n + 1, hn⟩)
      (iblk0_apply m c ⟨n + 1, hn⟩) (iblk1_apply m c ⟨n + 1, hn⟩) (iblk2_apply m c ⟨n + 1, hn⟩)
      (accAt (F := Ideal) m c n hn').1 r e (fun hk => ?_)
    have hp : bOf ⟨n, hn'⟩ = bOf ⟨n + 1, hn⟩ ∧ hOf ⟨n, hn'⟩ = hOf ⟨n + 1, hn⟩ ∧ qiOf ⟨n, hn'⟩ = qiOf ⟨n + 1, hn⟩
        ∧ (kiOf ⟨n, hn'⟩).val + 1 = (kiOf ⟨n + 1, hn⟩).val := pred_coords ⟨n + 1, hn⟩ hk
    rw [ih hn', hp.1, hp.2.1, hp.2.2.1, hp.2.2.2]

theorem den_inv (c : Dev nD) (t : Fin cfg0.N) (r : Fin 256) :
    (accAt (F := Ideal) m c t.val t.isLt).2 (ix2 r (0 : Fin 1))
      = ∑ j ∈ Finset.range ((kiOf t).val + 1), ∑ cc : Fin 256,
          Cert.Taylor.weight (Qa m c) (Ka m c) (bOf t) (hOf t) (pos (qiOf t) r) (posN (j * 256 + cc.val)) := by
  obtain ⟨n, hn⟩ := t
  induction n with
  | zero =>
    exact denStep_apply (Qa m c) (Ka m c) (bOf ⟨0, hn⟩) (hOf ⟨0, hn⟩) (qiOf ⟨0, hn⟩) (kiOf ⟨0, hn⟩) (grid0.coords ⟨0, hn⟩)
      (w1_eq ⟨0, hn⟩) (w2_eq ⟨0, hn⟩) (cond1_kiOf ⟨0, hn⟩) (cond2_kiOf ⟨0, hn⟩)
      (iblk m c 0 ⟨0, hn⟩) (iblk m c 1 ⟨0, hn⟩)
      (iblk0_apply m c ⟨0, hn⟩) (iblk1_apply m c ⟨0, hn⟩)
      (k0_pay2 (F := Ideal)) r (fun hk => absurd rfl hk)
  | succ n ih =>
    have hn' : n < cfg0.N := Nat.lt_of_succ_lt hn
    refine denStep_apply (Qa m c) (Ka m c) (bOf ⟨n + 1, hn⟩) (hOf ⟨n + 1, hn⟩) (qiOf ⟨n + 1, hn⟩) (kiOf ⟨n + 1, hn⟩) (grid0.coords ⟨n + 1, hn⟩)
      (w1_eq ⟨n + 1, hn⟩) (w2_eq ⟨n + 1, hn⟩) (cond1_kiOf ⟨n + 1, hn⟩) (cond2_kiOf ⟨n + 1, hn⟩)
      (iblk m c 0 ⟨n + 1, hn⟩) (iblk m c 1 ⟨n + 1, hn⟩)
      (iblk0_apply m c ⟨n + 1, hn⟩) (iblk1_apply m c ⟨n + 1, hn⟩)
      (accAt (F := Ideal) m c n hn').2 r (fun hk => ?_)
    have hp : bOf ⟨n, hn'⟩ = bOf ⟨n + 1, hn⟩ ∧ hOf ⟨n, hn'⟩ = hOf ⟨n + 1, hn⟩ ∧ qiOf ⟨n, hn'⟩ = qiOf ⟨n + 1, hn⟩
        ∧ (kiOf ⟨n, hn'⟩).val + 1 = (kiOf ⟨n + 1, hn⟩).val := pred_coords ⟨n + 1, hn⟩ hk
    rw [ih hn', hp.1, hp.2.1, hp.2.2.1, hp.2.2.2]

/-- At a last key block the sums run over all 2048 key positions, and the stored quotient is the result. -/
theorem out_eq (c : Dev nD) (t : Fin cfg0.N) (h3 : (kiOf t).val = 7) (r : Fin 256) (e : Fin 64) :
    outAt (F := Ideal) m c t (ix3 (0 : Fin 1) r e)
      = Cert.Taylor.outAt (Qa m c) (Ka m c) (Va m c) (bOf t) (hOf t) (pos (qiOf t) r) e := by
  unfold outAt
  rw [PayloadAt.pay5_apply, num_inv m c t r e, den_inv m c t r, h3]
  rw [Cert.Taylor.sum_blocks (fun k => Cert.Taylor.weight (Qa m c) (Ka m c) (bOf t) (hOf t) (pos (qiOf t) r) (posN k)
        * Va m c (ix4 (bOf t) (hOf t) (posN k) e)),
    Cert.Taylor.sum_blocks (fun k => Cert.Taylor.weight (Qa m c) (Ka m c) (bOf t) (hOf t) (pos (qiOf t) r) (posN k))]
  simp only [posN_val]
  rfl

end Cert.KernelIdeal.Body

end
-- ==== Proof.KI.Whole.lean ====
/-
  The regrouped result array after the region: every written-back block is the result on its 256 rows, and the blocks
  written back at the last key blocks tile the array.
-/
import proofs.«137528_j72902774882841_1_alg».proof.Proof.KI.Invariant
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The result with batch and head regrouped to one axis of 16 (row-major: entry `g` is batch `g / 8`, head `g % 8`). -/
def G3 (c : Dev nD) : S16x2048x64.Idx → EReal :=
  fun y => Cert.Taylor.outAt (Qa m c) (Ka m c) (Va m c)
    ⟨(y 0).val / 8, by have h : (y 0).val < 16 := (y 0).isLt; omega⟩ ⟨(y 0).val % 8, Nat.mod_lt _ (by decide)⟩ (y 1) (y 2)

/-! ### What a last key block writes back -/

/-- The regrouped result at (g, p, e), where g = b·8 + h, is the result at batch b, head h, position p, feature e. -/
theorem G3_apply (c : Dev nD) (g : Fin 16) (b : Fin 2) (h : Fin 8) (hg : g.val = b.val * 8 + h.val) (p : Fin 2048) (e : Fin 64) :
    G3 m c (ix3 g p e) = Cert.Taylor.outAt (Qa m c) (Ka m c) (Va m c) b h p e := by
  have hb : (⟨g.val / 8, by have := g.isLt; omega⟩ : Fin 2) = b := Fin.ext (by show g.val / 8 = b.val; have := h.isLt; omega)
  have hh : (⟨g.val % 8, Nat.mod_lt _ (by decide)⟩ : Fin 8) = h := Fin.ext (by show g.val % 8 = h.val; have := h.isLt; omega)
  show Cert.Taylor.outAt (Qa m c) (Ka m c) (Va m c) ⟨g.val / 8, _⟩ ⟨g.val % 8, _⟩ p e = _
  rw [hb, hh]

/-- The output window's block index at the point numbered t: (batch·8 + head, query block, 0). -/
theorem idx3 : ∀ t : Fin cfg0.N, win0_3.index t (0 : Fin 3) = t.val / 64 ∧ win0_3.index t (1 : Fin 3) = t.val / 8 % 8
    ∧ win0_3.index t (2 : Fin 3) = 0 :=
  (by decide +kernel : ∀ t : Fin grid0.N, _)

/-- Row r, feature e of the output block at t sits in the regrouped array at (batch·8 + head, query block·256 + r, e). -/
theorem emb3 (t : Fin cfg0.N) (r : Fin 256) (e : Fin 64) :
    ((cfg0.win 3).blk t).view.emb (ix3 (0 : Fin 1) r e) = ix3 (gOf t) (pos (qiOf t) r) e := by
  obtain ⟨e0, e1, e2⟩ := idx3 t
  funext a; apply Fin.ext
  match a with
  | ⟨0, _⟩ => show win0_3.index t (0 : Fin 3) * 1 + 1 * 0 = t.val / 64; omega
  | ⟨1, _⟩ => show win0_3.index t (1 : Fin 3) * 256 + 1 * r.val = t.val / 8 % 8 * 256 + r.val; omega
  | ⟨2, _⟩ => show win0_3.index t (2 : Fin 3) * 64 + 1 * e.val = e.val; omega

/-- Two arrays over a block agree when they agree at every row and feature (the block's first axis has one entry). -/
theorem block_ext {α : Type} (f g : S1x256x64.Idx → α) (h : ∀ (r : Fin 256) (e : Fin 64), f (ix3 (0 : Fin 1) r e) = g (ix3 (0 : Fin 1) r e)) :
    f = g := by
  funext y
  have hy := eq_ix3 y
  have h0 : (y 0).val < 1 := (y 0).isLt
  rw [show y 0 = (0 : Fin 1) from Fin.ext (Nat.lt_one_iff.mp h0)] at hy
  rw [hy]
  exact h _ _

/-- What a last key block writes back is its block of the regrouped result. -/
theorem flushed3_eq (c : Dev nD) (t : Fin cfg0.N) (hf : (cfg0.win 3).flush t = true) :
    (dats (F := Ideal) m 0 c).flushed 3 t = ((cfg0.win 3).blk t).view.read (Elt Ideal) (G3 m c) := by
  have h7 : (kiOf t).val = 7 := (flush0_3 t).mp hf
  show (cfg0.win 3).cut (grid0.coords t) ((dats (F := Ideal) m 0 c).after 3 t) = _
  rw [after3]
  refine block_ext (α := EReal) ((cfg0.win 3).cut (grid0.coords t) (outAt (F := Ideal) m c t))
    (((cfg0.win 3).blk t).view.read (Elt Ideal) (G3 m c)) (fun r e => ?_)
  show outAt (F := Ideal) m c t (ix3 (0 : Fin 1) r e) = G3 m c (((cfg0.win 3).blk t).view.emb (ix3 (0 : Fin 1) r e))
  rw [emb3, out_eq m c t h7 r e, G3_apply m c (gOf t) (bOf t) (hOf t) (gOf_eq t)]

/-! ### The written-back blocks tile the array -/

/-- An index of the regrouped array is in the output block at t iff each coordinate is in the block's range on its axis. -/
theorem mem_blk3 (t : Fin cfg0.N) (i : S16x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3).slice (win0_3.rect t)).set ↔ _
  rw [View.set_slice_whole, Rect.mem_set_unit]
  exact Iff.rfl

/-- Every index (g, p, e) is in the block written back at the last key block of batch-and-head g and query block p / 256. -/
theorem cover3 (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hlt : (i 0).val * 64 + (i 1).val / 256 * 8 + 7 < cfg0.N := by
    have hN : cfg0.N = 1024 := N_0
    rw [hN]; omega
  obtain ⟨t, ht⟩ : ∃ t : Fin cfg0.N, t.val = (i 0).val * 64 + (i 1).val / 256 * 8 + 7 := ⟨⟨_, hlt⟩, rfl⟩
  obtain ⟨e0, e1, e2⟩ := idx3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

theorem final3 (c : Dev nD) : (dats (F := Ideal) m 0 c).arrAt 3 cfg0.N = G3 m c :=
  (dats (F := Ideal) m 0 c).arrAt_eq_of_cover 3 (G3 m c) (fun t hf => flushed3_eq m c t hf) (cover3)

end Cert.KernelIdeal.Body

end
-- ==== Proof.KI.Final.lean ====
/-
  The idealized kernel's result: each written-back block is the result on its 256 rows, the blocks tile the regrouped
  array, and the final regrouping back to batch × head gives the result array.
-/
import proofs.«137528_j72902774882841_1_alg».proof.Proof.KI.Whole
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The regrouping back to batch and head -/

/-- After the region and the one operation that follows it, the result buffer holds the result array: the region leaves
    the regrouped array (16 groups of batch and head), and the regrouping back reads entry (b, h, p, e) of the four-axis
    array at entry (8 b + h, p, e) — the same row-major position —, where 8 b + h has quotient b and remainder h by 8. -/
theorem tail (c : Dev nD) :
    Pipeline.afterTail₀ cfgs (dats (F := Ideal) m) 0 (V0 m) [hostOps1] c main_v4
      = Cert.Taylor.result (Qa m c) (Ka m c) (Va m c) := by
  unfold Pipeline.afterTail₀
  show StableHlo.after hostOps1 _ (Proc.devRef .tc main_v4) = _
  after_results
  have hW : Pipeline.withArrays (cfgs 0).spec c (V0 m c) (fun w => (dats (F := Ideal) m 0 c).arrAt w (cfgs 0).N)
      (Proc.devRef .tc main_v3) = G3 m c :=
    (Pipeline.withArrays_arr spec0 launch0.win.arr_inj c _ _ 3).trans (final3 m c)
  funext x
  show shapeCast S2x8x2048x64 (Pipeline.withArrays (cfgs 0).spec c (V0 m c)
      (fun w => (dats (F := Ideal) m 0 c).arrAt w (cfgs 0).N) (Proc.devRef .tc main_v3))
      shapeCasts_S16x2048x64_S2x8x2048x64 x = _
  rw [hW]
  have h0 : (x 0).val < 2 := (x 0).isLt
  have h1 : (x 1).val < 8 := (x 1).isLt
  have h2 : (x 2).val < 2048 := (x 2).isLt
  have h3 : (x 3).val < 64 := (x 3).isLt
  refine (shapeCast_apply (G3 m c) shapeCasts_S16x2048x64_S2x8x2048x64 x
    (ix3 (⟨(x 0).val * 8 + (x 1).val, by omega⟩ : Fin 16) (x 2 : Fin 2048) (x 3 : Fin 64) : S16x2048x64.Idx) ?_).trans ?_
  · rw [Shape.rowMajor_val_three, Shape.rowMajor_val_four]
    show (((x 0).val * 8 + (x 1).val) * 2048 + (x 2).val) * 64 + (x 3).val
      = (((x 0).val * 8 + (x 1).val) * 2048 + (x 2).val) * 64 + (x 3).val
    rfl
  · have e0 : (⟨((x 0).val * 8 + (x 1).val) / 8, by omega⟩ : Fin 2) = x 0 :=
      Fin.ext (by show ((x 0).val * 8 + (x 1).val) / 8 = (x 0).val; omega)
    have e1 : (⟨((x 0).val * 8 + (x 1).val) % 8, Nat.mod_lt _ (by decide)⟩ : Fin 8) = x 1 :=
      Fin.ext (by show ((x 0).val * 8 + (x 1).val) % 8 = (x 1).val; omega)
    show Cert.Taylor.outAt (Qa m c) (Ka m c) (Va m c) ⟨((x 0).val * 8 + (x 1).val) / 8, _⟩
        ⟨((x 0).val * 8 + (x 1).val) % 8, _⟩ (x 2) (x 3)
      = Cert.Taylor.outAt (Qa m c) (Ka m c) (Va m c) (x 0) (x 1) (x 2) (x 3)
    rw [e0, e1]

/-! ## The run -/

theorem value_run :
    θ_run (defs (F := Ideal)) (onTc (τ := τ) (main (F := Ideal))) ⟨m, fun _ => 0, ρ⟩ (fun r => ∀ c : Dev nD,
      r.2.mem ((c.tc : Thread nD τ).loc main_v4) = Cert.Taylor.result (Qa m c) (Ka m c) (Va m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun r h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Body

end
-- ==== Proof.RefTerm.lean ====
/-
  The reference program as one pure function of its three argument arrays.

  Each definition below is one stretch of the reference's operations, in the order the program states them, every
  outlined function's body applied to its call's operands: the scores (a batched inner product over the 64 features),
  the three incremental Taylor terms and their running sums, the lower-triangular mask built from two index grids,
  the masked weights, the numerator (a batched product with the values), the normaliser (a sum over the key axis,
  broadcast back over the features), their quotient, and the replacement of not-a-number and of the two infinities.
  Nothing is proved here: the module only names the composed term, at the extended reals.
-/
import proofs.«137528_j72902774882841_1_alg».proof.ReferenceIdeal
import Idealize.ShloMosaic.PureOps.Ideal

noncomputable section

namespace Cert.ReferenceIdeal.RefValue

open Idealize.ShloMosaic Idealize.SL.Sem Cert.ReferenceIdeal

variable [Cert.ReferenceIdeal.Facts]
open Cert.ReferenceIdeal.Facts₀ Cert.ReferenceIdeal.Facts

/-- A square array over batch, head, query position and key position. -/
abbrev Sq := FVec Ideal S2x8x2048x2048 .f32
/-- An argument or result array over batch, head, position and feature. -/
abbrev Arr := FVec Ideal S2x8x2048x64 .f32

/-- The scores: for each batch and head, the inner product over the features of a query row and a key row. -/
def scores (Q K : Arr) : Sq :=
  Host.dotGeneral (F := Ideal) dot_S2x8x2048x64_S2x8x2048x64_S2x8x2048x2048_3_3_2_2_01_01 none Q K

/-- The constant array of the word for one. -/
def ones : Sq :=
  broadcastInDim S2x8x2048x2048 ![] bcast_S_S2x8x2048x2048 (constant (F := Ideal) S_ .f32 0x3F800000#32)

/-- The constant array of the word for two. -/
def twos : Sq :=
  broadcastInDim S2x8x2048x2048 ![] bcast_S_S2x8x2048x2048 (constant (F := Ideal) S_ .f32 0x40000000#32)

/-- The constant array of the word for three. -/
def threes : Sq :=
  broadcastInDim S2x8x2048x2048 ![] bcast_S_S2x8x2048x2048 (constant (F := Ideal) S_ .f32 0x40400000#32)

/-- The first Taylor term: one times the score, over one. -/
def term1 (s : Sq) : Sq :=
  Host.divf (F := Ideal) (mulf (F := Ideal) ones s) ones

/-- The second Taylor term: the first term times the score, over two. -/
def term2 (s : Sq) : Sq :=
  Host.divf (F := Ideal) (mulf (F := Ideal) (term1 s) s) twos

/-- The third Taylor term: the second term times the score, over three. -/
def term3 (s : Sq) : Sq :=
  Host.divf (F := Ideal) (mulf (F := Ideal) (term2 s) s) threes

/-- The cubic polynomial of the score: one plus the three terms, added left to right. -/
def polyArr (s : Sq) : Sq :=
  addf (F := Ideal) (addf (F := Ideal) (addf (F := Ideal) ones (term1 s)) (term2 s)) (term3 s)

/-- The lower-triangular mask on a 2048 by 2048 grid: the all-true grid kept where the row index plus zero is at
    least the column index (as signed 32-bit words), false elsewhere. -/
def causal : IVec S2048x2048 1 :=
  select
    (cmpi .sge
      (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 1#1))
    (broadcastInDim S2048x2048 ![] bcast_S_S2048x2048 (constantI S_ 1 0#1))

/-- The masked weights: the polynomial where the mask (repeated over batch and head) is true, the zero word elsewhere. -/
def weights (s : Sq) : Sq :=
  select
    (broadcastInDim S2x8x2048x2048 ![2, 3] bcast_S2048x2048_S2x8x2048x2048_2_3 causal)
    (polyArr s)
    (broadcastInDim S2x8x2048x2048 ![] bcast_S_S2x8x2048x2048 (constant (F := Ideal) S_ .f32 0x00000000#32))

/-- The numerator: for each batch and head, the product of the weights with the values over the key positions. -/
def numer (w : Sq) (V : Arr) : Arr :=
  Host.dotGeneral (F := Ideal) dot_S2x8x2048x2048_S2x8x2048x64_S2x8x2048x64_3_2_2_3_01_01 none w V

/-- The normaliser: the sum of the weights over the key positions from the zero word, repeated over the features. -/
def normal (w : Sq) : Arr :=
  broadcastInDim S2x8x2048x64 ![0, 1, 2, 3] bcast_S2x8x2048x1_S2x8x2048x64_0_1_2_3
    (broadcastInDim S2x8x2048x1 ![0, 1, 2] bcast_S2x8x2048_S2x8x2048x1_0_1_2
      (Host.reduceAdd (F := Ideal) w (constant (F := Ideal) S_ .f32 0x00000000#32)
        reducesTo_S2x8x2048x2048_S2x8x2048_d3 h_S_))

/-- The quotient of numerator and normaliser. -/
def quot (w : Sq) (V : Arr) : Arr :=
  Host.divf (F := Ideal) (numer w V) (normal w)

/-- Not-a-number replaced by the zero word: where an entry differs from itself. -/
def guard0 (x : Arr) : Arr :=
  select (cmpf (F := Ideal) .une x x)
    (broadcastInDim S2x8x2048x64 ![] bcast_S_S2x8x2048x64 (constant (F := Ideal) S_ .f32 0x00000000#32))
    x

/-- Plus infinity replaced by the largest finite word. -/
def guard1 (x : Arr) : Arr :=
  select
    (cmpf (F := Ideal) .oeq x
      (broadcastInDim S2x8x2048x64 ![] bcast_S_S2x8x2048x64 (constant (F := Ideal) S_ .f32 0x7F800000#32)))
    (broadcastInDim S2x8x2048x64 ![] bcast_S_S2x8x2048x64 (constant (F := Ideal) S_ .f32 0x7F7FFFFF#32))
    x

/-- Minus infinity replaced by the most negative finite word. -/
def guard2 (x : Arr) : Arr :=
  select
    (cmpf (F := Ideal) .oeq x
      (broadcastInDim S2x8x2048x64 ![] bcast_S_S2x8x2048x64 (constant (F := Ideal) S_ .f32 0xFF800000#32)))
    (broadcastInDim S2x8x2048x64 ![] bcast_S_S2x8x2048x64 (constant (F := Ideal) S_ .f32 0xFF7FFFFF#32))
    x

/-- The three replacements in the program's order. -/
def guards (x : Arr) : Arr := guard2 (guard1 (guard0 x))

/-- The reference's result as a function of queries, keys and values. -/
def refOut (Q K V : FVec Ideal S2x8x2048x64 .f32) : FVec Ideal S2x8x2048x64 .f32 :=
  guards (quot (weights (scores Q K)) V)

end Cert.ReferenceIdeal.RefValue

end
-- ==== Proof.RefRun.lean ====
/-
  The reference program's @main as the list of its operations, and its run.

  @main is a straight line: its own twenty-seven operations and, at the three calls, the callee's operations over the
  call's buffers — the lower-triangular mask (nine), the masked select (three), and the replacement of not-a-number
  and the two infinities (ten, with its three inner selects of two operations each): fifty-five in all. Every weakly
  fair execution terminates with each buffer at the fold of the operations over the launch contents.
-/
import proofs.«137528_j72902774882841_1_alg».proof.Proof.Gen.ReferenceIdeal
import Idealize.ShloMosaic.Lib.StableHlo.Run
import proofs.«137528_j72902774882841_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's fifty-five operations in order, the calls unfolded: the scores and their cubic polynomial (1–18), the
    all-true array and the lower-triangular mask built from it (19–29), the zero and the masked select (30–33), the
    weighted sum, the normaliser, its two broadcasts and the quotient (34–39), then the three replacements (40–55). -/
abbrev ops : List (HloOp τ sig (Elt F)) :=
  [ binary main_arg0 main_arg1 main_v0 ((fun l r => Host.dotGeneral dot_S2x8x2048x64_S2x8x2048x64_S2x8x2048x2048_3_3_2_2_01_01 none l r) : (⟨S2x8x2048x64, .f32⟩ : BufTy).Contents (Elt F) → (⟨S2x8x2048x64, .f32⟩ : BufTy).Contents (Elt F) → (⟨S2x8x2048x2048, .f32⟩ : BufTy).Contents (Elt F)),
    nullary main_cst (constant S_ .f32 0x3F800000#32),
    unary main_cst main_v1 (broadcastInDim S2x8x2048x2048 ![] bcast_S_S2x8x2048x2048 : (⟨S_, .f32⟩ : BufTy).Contents (Elt F) → (⟨S2x8x2048x2048, .f32⟩ : BufTy).Contents (Elt F)),
    binary main_v1 main_v0 main_v2 (mulf : (⟨S2x8x2048x2048, .f32⟩ : BufTy).Contents (Elt F) → (⟨S2x8x2048x2048, .f32⟩ : BufTy).Contents (Elt F) → (⟨S2x8x2048x2048, .f32⟩ : BufTy).Contents (Elt F)),
    nullary main_cst_0 (constant S_ .f32 0x3F800000#32),
    unary main_cst_0 main_v3 (broadcastInDim S2x8x2048x2048 ![] bcast_S_S2x8x2048x2048 : (⟨S_, .f32⟩ : BufTy).Contents (Elt F) → (⟨S2x8x2048x2048, .f32⟩ : BufTy).Contents (Elt F)),
    binary main_v2 main_v3 main_v4 (Host.divf : (⟨S2x8x2048x2048, .f32⟩ : BufTy).Contents (Elt F) → (⟨S2x8x2048x2048, .f32⟩ : BufTy).Contents (Elt F) → (⟨S2x8x2048x2048, .f32⟩ : BufTy).Contents (Elt F)),
    binary main_v1 main_v4 main_v5 (addf : (⟨S2x8x2048x2048, .f32⟩ : BufTy).Contents (Elt F) → (⟨S2x8x2048x2048, .f32⟩ : BufTy).Contents (Elt F) → (⟨S2x8x2048x2048, .f32⟩ : BufTy).Contents (Elt F)),
    binary main_v4 main_v0 main_v6 (mulf : (⟨S2x8x2048x2048, .f32⟩ : BufTy).Contents (Elt F) → (⟨S2x8x2048x2048, .f32⟩ : BufTy).Contents (Elt F) → (⟨S2x8x2048x2048, .f32⟩ : BufTy).Contents (Elt F)),
    nullary main_cst_1 (constant S_ .f32 0x40000000#32),
    unary main_cst_1 main_v7 (broadcastInDim S2x8x2048x2048 ![] bcast_S_S2x8x2048x2048 : (⟨S_, .f32⟩ : BufTy).Contents (Elt F) → (⟨S2x8x2048x2048, .f32⟩ : BufTy).Contents (Elt F)),
    binary main_v6 main_v7 main_v8 (Host.divf : (⟨S2x8x2048x2048, .f32⟩ : BufTy).Contents (Elt F) → (⟨S2x8x2048x2048, .f32⟩ : BufTy).Contents (Elt F) → (⟨S2x8x2048x2048, .f32⟩ : BufTy).Contents (Elt F)),
    binary main_v5 main_v8 main_v9 (addf : (⟨S2x8x2048x2048, .f32⟩ : BufTy).Contents (Elt F) → (⟨S2x8x2048x2048, .f32⟩ : BufTy).Contents (Elt F) → (⟨S2x8x2048x2048, .f32⟩ : BufTy).Contents (Elt F)),
    binary main_v8 main_v0 main_v10 (mulf : (⟨S2x8x2048x2048, .f32⟩ : BufTy).Contents (Elt F) → (⟨S2x8x2048x2048, .f32⟩ : BufTy).Contents (Elt F) → (⟨S2x8x2048x2048, .f32⟩ : BufTy).Contents (Elt F)),
    nullary main_cst_2 (constant S_ .f32 0x40400000#32),
    unary main_cst_2 main_v11 (broadcastInDim S2x8x2048x2048 ![] bcast_S_S2x8x2048x2048 : (⟨S_, .f32⟩ : BufTy).Contents (Elt F) → (⟨S2x8x2048x2048, .f32⟩ : BufTy).Contents (Elt F)),
    binary main_v10 main_v11 main_v12 (Host.divf : (⟨S2x8x2048x2048, .f32⟩ : BufTy).Contents (Elt F) → (⟨S2x8x2048x2048, .f32⟩ : BufTy).Contents (Elt F) → (⟨S2x8x2048x2048, .f32⟩ : BufTy).Contents (Elt F)),
    binary main_v9 main_v12 main_v13 (addf : (⟨S2x8x2048x2048, .f32⟩ : BufTy).Contents (Elt F) → (⟨S2x8x2048x2048, .f32⟩ : BufTy).Contents (Elt F) → (⟨S2x8x2048x2048, .f32⟩ : BufTy).Contents (Elt F)),
    nullary main_c (constantI S_ 1 1#1),
    unary main_c main_v14 (broadcastInDim S2048x2048 ![] bcast_S_S2048x2048 : (⟨S_, .i1⟩ : BufTy).Contents (Elt F) → (⟨S2048x2048, .i1⟩ : BufTy).Contents (Elt F)),
    TRef.nullary main_call0.v0 (iotaInDim S2048x2048 32 0),
    TRef.nullary main_call0.c (constantI S_ 32 0#32),
    TRef.unary main_call0.c main_call0.v1 (broadcastInDim S2048x2048 ![] bcast_S_S2048x2048),
    TRef.binary main_call0.v0 main_call0.v1 main_call0.v2 addi,
    TRef.nullary main_call0.v3 (iotaInDim S2048x2048 32 1),
    TRef.binary main_call0.v2 main_call0.v3 main_call0.v4 (cmpi .sge),
    TRef.nullary main_call0.c_0 (constantI S_ 1 0#1),
    TRef.unary main_call0.c_0 main_call0.v5 (broadcastInDim S2048x2048 ![] bcast_S_S2048x2048),
    TRef.ternary main_call0.v4 (.of main_v14) main_call0.v5 main_call0.v6 select,
    nullary main_cst_3 (constant S_ .f32 0x00000000#32),
    TRef.unary (.of main_v15 : TRef sig ⟨S2048x2048, .i1⟩) main_call1.v0 (broadcastInDim S2x8x2048x2048 ![2, 3] bcast_S2048x2048_S2x8x2048x2048_2_3),
    TRef.unary (.of main_cst_3 : TRef sig ⟨S_, .f32⟩) main_call1.v1 (broadcastInDim S2x8x2048x2048 ![] bcast_S_S2x8x2048x2048),
    TRef.ternary main_call1.v0 (.of main_v13) main_call1.v1 main_call1.v2 select,
    binary main_v16 main_arg2 main_v17 ((fun l r => Host.dotGeneral dot_S2x8x2048x2048_S2x8x2048x64_S2x8x2048x64_3_2_2_3_01_01 none l r) : (⟨S2x8x2048x2048, .f32⟩ : BufTy).Contents (Elt F) → (⟨S2x8x2048x64, .f32⟩ : BufTy).Contents (Elt F) → (⟨S2x8x2048x64, .f32⟩ : BufTy).Contents (Elt F)),
    nullary main_cst_4 (constant S_ .f32 0x00000000#32),
    binary main_v16 main_cst_4 main_v18 ((fun x v => Host.reduceAdd x v reducesTo_S2x8x2048x2048_S2x8x2048_d3 h_S_) : (⟨S2x8x2048x2048, .f32⟩ : BufTy).Contents (Elt F) → (⟨S_, .f32⟩ : BufTy).Contents (Elt F) → (⟨S2x8x2048, .f32⟩ : BufTy).Contents (Elt F)),
    unary main_v18 main_v19 (broadcastInDim S2x8x2048x1 ![0, 1, 2] bcast_S2x8x2048_S2x8x2048x1_0_1_2 : (⟨S2x8x2048, .f32⟩ : BufTy).Contents (Elt F) → (⟨S2x8x2048x1, .f32⟩ : BufTy).Contents (Elt F)),
    unary main_v19 main_v20 (broadcastInDim S2x8x2048x64 ![0, 1, 2, 3] bcast_S2x8x2048x1_S2x8x2048x64_0_1_2_3 : (⟨S2x8x2048x1, .f32⟩ : BufTy).Contents (Elt F) → (⟨S2x8x2048x64, .f32⟩ : BufTy).Contents (Elt F)),
    binary main_v17 main_v20 main_v21 (Host.divf : (⟨S2x8x2048x64, .f32⟩ : BufTy).Contents (Elt F) → (⟨S2x8x2048x64, .f32⟩ : BufTy).Contents (Elt F) → (⟨S2x8x2048x64, .f32⟩ : BufTy).Contents (Elt F)),
    TRef.binary (.of main_v21) (.of main_v21) main_call2.v0 (cmpf .une),
    TRef.nullary main_call2.cst (constant S_ .f32 0x00000000#32),
    TRef.unary main_call2.cst main_call2.call0.v0 (broadcastInDim S2x8x2048x64 ![] bcast_S_S2x8x2048x64),
    TRef.ternary main_call2.v0 main_call2.call0.v0 (.of main_v21) main_call2.call0.v1 select,
    TRef.nullary main_call2.cst_0 (constant S_ .f32 0x7F800000#32),
    TRef.unary main_call2.cst_0 main_call2.v2 (broadcastInDim S2x8x2048x64 ![] bcast_S_S2x8x2048x64),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S2x8x2048x64 ![] bcast_S_S2x8x2048x64),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S2x8x2048x64 ![] bcast_S_S2x8x2048x64),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S2x8x2048x64 ![] bcast_S_S2x8x2048x64),
    TRef.ternary main_call2.v6 main_call2.call2.v0 main_call2.call1.v1 main_call2.call2.v1 select ]

-- fifty-five binds re-associated: the rewrite under the chain recurses once per statement
set_option maxRecDepth 4096 in
set_option maxHeartbeats 1000000 in
/-- @main is that straight line: the callees' definitions unfolded at their calls and the records at their fields,
    both sides are one chain of steps once sequencing is reassociated. -/
theorem main_eq (c : Dev nD) : main (F := F) c = seq ops := by
  simp only [main, fn_tril.body, fn_where.body, fn_where_0.body, fn_nan_to_num.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., unary_bufs_sub .., ternary_bufs_sub .., binary_bufs_sub .., nullary_bufs_sub .., binary_bufs_sub .., unary_bufs_sub .., unary_bufs_sub .., binary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩

/-- From any memory with zero counters: every weakly fair execution of @main terminates, and every final state has
    each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the result and the arguments hold -/

/-- An argument buffer is written by no operation: the fold leaves it. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

set_option maxRecDepth 8192 in
set_option maxHeartbeats 1000000 in
/-- The fold at the result buffer is the composed term of the three argument arrays: each operation's result at its
    own buffer is its function's value, at any other buffer what was there, and the typed references' transports are
    the identity at these literal references. -/
theorem out_eq (V : Valuation τ sig (Elt Ideal)) :
    after (ops (F := Ideal)) V (main_v22 : DevRef τ sig)
      = refOut (V (main_arg0 : DevRef τ sig)) (V (main_arg1 : DevRef τ sig)) (V (main_arg2 : DevRef τ sig)) := by
  after_results_simp
  rfl

/-! ## The run -/

/-- On every device, at the extended reals, from any memory with zero counters: every weakly fair execution of @main
    terminates with the result buffer at the composed term of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v22).trans (out_eq _), (h c main_arg0).trans (arg0_eq _),
      (h c main_arg1).trans (arg1_eq _), (h c main_arg2).trans (arg2_eq _)⟩)
    (run_all m ρ)

/-- The arguments end unchanged: the run's post without its first conjunct. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.RefValue

end
-- ==== Proof.RefValue.lean ====
/-
  The reference program computes the masked cubic-Taylor attention of the specification, entry by entry.

  Each stage of the reference's composed term is read at an index: the scores product at (b, h, i, j) is the inner
  product over the 64 features (the product's contraction index re-indexed to a feature number, the operand indices
  computed axis by axis); the three Taylor terms and their sum are entrywise; the mask compares two index grids as
  signed words of numbers below 2048, so it is true exactly where the column is not after the row; the masked weights
  choose between the polynomial and the zero word; the numerator product at (b, h, i, e) is the sum over the 2048 key
  positions; the normaliser is the sum of the weights from the zero word, repeated over the features; and of the three
  replacements the first never fires (no extended real differs from itself) and the other two are the replacement of
  the two infinities. Put together, the reference's result equals the specification's at every entry.
-/
import proofs.«137528_j72902774882841_1_alg».proof.Proof.RefTerm
import proofs.«137528_j72902774882841_1_alg».proof.Proof.Taylor
import Idealize.ShloMosaic.Lib.ValueIdx
import Idealize.ShloMosaic.PureOps.Ideal.Laws
import Idealize.ShloMosaic.Lib.Pipeline.Value
import Idealize.ShloMosaic.Lib.StableHlo.Predicate

noncomputable section

namespace Cert.ReferenceIdeal.RefValue

open Idealize.ShloMosaic Idealize.SL.Sem Cert.ReferenceIdeal Idealize.ShloMosaic.ValueIdx

variable [Cert.ReferenceIdeal.Facts]
open Cert.ReferenceIdeal.Facts₀ Cert.ReferenceIdeal.Facts

/-! ### The scores product: operand indices at a result index, axis by axis -/

/-- The contraction index of the scores product is its one coordinate, a feature number. -/
abbrev qkEquiv : (dot_S2x8x2048x64_S2x8x2048x64_S2x8x2048x2048_3_3_2_2_01_01).contr.Idx ≃ Fin 64 :=
  contrEquiv1 dot_S2x8x2048x64_S2x8x2048x64_S2x8x2048x2048_3_3_2_2_01_01 64 rfl rfl

theorem qk_lhs0 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).lhsIdx j c 0).val = (j 0).val := by
  unfold DotDims.lhsIdx
  rw [dif_pos (show (0 : Fin S2x8x2048x64.rank) ∈ (dot_S2x8x2048x64_S2x8x2048x64_S2x8x2048x2048_3_3_2_2_01_01).lhsBatch from List.mem_cons_self)]
  rfl

theorem qk_lhs1 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).lhsIdx j c 1).val = (j 1).val := by
  unfold DotDims.lhsIdx
  rw [dif_pos (show (1 : Fin S2x8x2048x64.rank) ∈ (dot_S2x8x2048x64_S2x8x2048x64_S2x8x2048x2048_3_3_2_2_01_01).lhsBatch from List.mem_cons_of_mem _ List.mem_cons_self)]
  rfl

theorem qk_lhs2 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).lhsIdx j c 2).val = (j 2).val := by
  unfold DotDims.lhsIdx
  rw [dif_neg (show ¬(2 : Fin S2x8x2048x64.rank) ∈ (dot_S2x8x2048x64_S2x8x2048x64_S2x8x2048x2048_3_3_2_2_01_01).lhsBatch from by
        show ¬(2 : Fin 4) ∈ ([0, 1] : List (Fin 4)); decide),
    dif_pos (show (2 : Fin S2x8x2048x64.rank) ∈ (dot_S2x8x2048x64_S2x8x2048x64_S2x8x2048x2048_3_3_2_2_01_01).lhsNonContracting from List.mem_cons_self)]
  rfl

theorem qk_lhs3 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).lhsIdx j c 3).val = (c ⟨0, Nat.one_pos⟩).val :=
  (dot_S2x8x2048x64_S2x8x2048x64_S2x8x2048x2048_3_3_2_2_01_01).lhsIdx_val_of_single rfl j c

theorem qk_rhs0 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).rhsIdx j c 0).val = (j 0).val := by
  unfold DotDims.rhsIdx
  rw [dif_pos (show (0 : Fin S2x8x2048x64.rank) ∈ (dot_S2x8x2048x64_S2x8x2048x64_S2x8x2048x2048_3_3_2_2_01_01).rhsBatch from List.mem_cons_self)]
  rfl

theorem qk_rhs1 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).rhsIdx j c 1).val = (j 1).val := by
  unfold DotDims.rhsIdx
  rw [dif_pos (show (1 : Fin S2x8x2048x64.rank) ∈ (dot_S2x8x2048x64_S2x8x2048x64_S2x8x2048x2048_3_3_2_2_01_01).rhsBatch from List.mem_cons_of_mem _ List.mem_cons_self)]
  rfl

theorem qk_rhs2 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).rhsIdx j c 2).val = (j 3).val := by
  unfold DotDims.rhsIdx
  rw [dif_neg (show ¬(2 : Fin S2x8x2048x64.rank) ∈ (dot_S2x8x2048x64_S2x8x2048x64_S2x8x2048x2048_3_3_2_2_01_01).rhsBatch from by
        show ¬(2 : Fin 4) ∈ ([0, 1] : List (Fin 4)); decide),
    dif_pos (show (2 : Fin S2x8x2048x64.rank) ∈ (dot_S2x8x2048x64_S2x8x2048x64_S2x8x2048x2048_3_3_2_2_01_01).rhsNonContracting from List.mem_cons_self)]
  rfl

theorem qk_rhs3 (j : S2x8x2048x2048.Idx) (c : (dot_S2x8x2048x64_S2x8x2048x64_S2x8x2048x2048_3_3_2_2_01_01).contr.Idx) :
    ((dot_S2x8x2048x64_S2x8x2048x64_S2x8x2048x2048_3_3_2_2_01_01).rhsIdx j c 3).val = (c ⟨0, Nat.one_pos⟩).val :=
  (dot_S2x8x2048x64_S2x8x2048x64_S2x8x2048x2048_3_3_2_2_01_01).rhsIdx_val_of_single rfl j c

/-- At result entry (b, h, i, j) and feature d the queries are read at (b, h, i, d). -/
theorem qk_lhsIdx (b : Fin 2) (h : Fin 8) (i j : Fin 2048) (d : Fin 64) :
    (dot_S2x8x2048x64_S2x8x2048x64_S2x8x2048x2048_3_3_2_2_01_01).lhsIdx (ix4 b h i j) (qkEquiv.symm d) = ix4 b h i d := by
  have hk := contrEquiv1_symm_val dot_S2x8x2048x64_S2x8x2048x64_S2x8x2048x2048_3_3_2_2_01_01 64 rfl rfl d
  exact funext fun a => Fin.ext (by
    match a with
    | ⟨0, _⟩ => exact qk_lhs0 _ _
    | ⟨1, _⟩ => exact qk_lhs1 _ _
    | ⟨2, _⟩ => exact qk_lhs2 _ _
    | ⟨3, _⟩ => exact (qk_lhs3 _ _).trans hk)

/-- At result entry (b, h, i, j) and feature d the keys are read at (b, h, j, d). -/
theorem qk_rhsIdx (b : Fin 2) (h : Fin 8) (i j : Fin 2048) (d : Fin 64) :
    (dot_S2x8x2048x64_S2x8x2048x64_S2x8x2048x2048_3_3_2_2_01_01).rhsIdx (ix4 b h i j) (qkEquiv.symm d) = ix4 b h j d := by
  have hk := contrEquiv1_symm_val dot_S2x8x2048x64_S2x8x2048x64_S2x8x2048x2048_3_3_2_2_01_01 64 rfl rfl d
  exact funext fun a => Fin.ext (by
    match a with
    | ⟨0, _⟩ => exact qk_rhs0 _ _
    | ⟨1, _⟩ => exact qk_rhs1 _ _
    | ⟨2, _⟩ => exact qk_rhs2 _ _
    | ⟨3, _⟩ => exact (qk_rhs3 _ _).trans hk)

/-- A score is the inner product over the 64 features of a query row and a key row. -/
theorem scores_apply (Q K : Arr) (b : Fin 2) (h : Fin 8) (i j : Fin 2048) :
    scores Q K (ix4 b h i j) = ∑ d : Fin 64, Q (ix4 b h i d) * K (ix4 b h j d) := by
  unfold scores
  refine (Ideal.dotGeneral_apply _ none .single Q K (ix4 b h i j)).trans ?_
  rw [← Equiv.sum_comp qkEquiv.symm]
  refine Finset.sum_congr rfl fun d _ => ?_
  rw [qk_lhsIdx, qk_rhsIdx]

/-! ### The Taylor terms, entry by entry -/

theorem ones_apply (x : S2x8x2048x2048.Idx) : ones x = Ideal.ofBits .f32 0x3F800000#32 := rfl
theorem twos_apply (x : S2x8x2048x2048.Idx) : twos x = Ideal.ofBits .f32 0x40000000#32 := rfl
theorem threes_apply (x : S2x8x2048x2048.Idx) : threes x = Ideal.ofBits .f32 0x40400000#32 := rfl

theorem term1_apply (s : Sq) (x : S2x8x2048x2048.Idx) :
    term1 s x = Ideal.div (Ideal.ofBits .f32 0x3F800000#32 * s x) (Ideal.ofBits .f32 0x3F800000#32) := rfl

theorem term2_apply (s : Sq) (x : S2x8x2048x2048.Idx) :
    term2 s x = Ideal.div (term1 s x * s x) (Ideal.ofBits .f32 0x40000000#32) := rfl

theorem term3_apply (s : Sq) (x : S2x8x2048x2048.Idx) :
    term3 s x = Ideal.div (term2 s x * s x) (Ideal.ofBits .f32 0x40400000#32) := rfl

/-- The polynomial array at an entry is the cubic Taylor polynomial of the score there. -/
theorem polyArr_apply (s : Sq) (x : S2x8x2048x2048.Idx) : polyArr s x = Cert.Taylor.poly (s x) := by
  show ((Ideal.ofBits .f32 0x3F800000#32 + term1 s x) + term2 s x) + term3 s x = _
  rw [term3_apply, term2_apply, term1_apply]
  rfl

/-! ### The causal mask -/

/-- The mask is true exactly where the column is not after the row. -/
theorem causal_eq_one_iff (p q : Fin 2048) : causal (ix2 p q) = 1#1 ↔ q.val ≤ p.val := by
  have hp : (BitVec.ofNat 32 p.val).toNat = p.val := by
    rw [BitVec.toNat_ofNat]; exact Nat.mod_eq_of_lt (by have := p.isLt; omega)
  have hq : (BitVec.ofNat 32 q.val).toNat = q.val := by
    rw [BitVec.toNat_ofNat]; exact Nat.mod_eq_of_lt (by have := q.isLt; omega)
  have hc : IntOp.cmpi .sge (IntOp.addi (BitVec.ofNat 32 p.val) 0#32) (BitVec.ofNat 32 q.val) = 1#1 ↔ q.val ≤ p.val := by
    have e : IntOp.addi (BitVec.ofNat 32 p.val) 0#32 = BitVec.ofNat 32 p.val := by
      unfold IntOp.addi; exact BitVec.add_zero _
    rw [e, StableHlo.Predicate.sge_iff_toNat (by rw [hp]; have := p.isLt; omega) (by rw [hq]; have := q.isLt; omega), hp, hq]
  show Scalar.select (IntOp.cmpi .sge (IntOp.addi (BitVec.ofNat 32 p.val) 0#32) (BitVec.ofNat 32 q.val)) 1#1 0#1 = 1#1 ↔ _
  by_cases hle : q.val ≤ p.val
  · rw [hc.2 hle, select_one]; exact iff_of_true rfl hle
  · rw [eq_zero_of_ne_one (fun h => hle (hc.1 h)), select_zero]; exact iff_of_false (by decide) hle

/-- The mask repeated over batch and head reads the 2048 by 2048 mask at (row, column). -/
theorem causal4_apply (b : Fin 2) (h : Fin 8) (i j : Fin 2048) :
    broadcastInDim S2x8x2048x2048 ![2, 3] bcast_S2048x2048_S2x8x2048x2048_2_3 causal (ix4 b h i j) = causal (ix2 i j) :=
  broadcastInDim_apply _ bcast_S2048x2048_S2x8x2048x2048_2_3 causal (ix4 b h i j) (ix2 i j) (fun a => by
    match a with
    | ⟨0, _⟩ => rfl
    | ⟨1, _⟩ => rfl)

/-- A masked weight: the polynomial where the key position is not after the query position, else zero. -/
theorem weights_apply (s : Sq) (b : Fin 2) (h : Fin 8) (i j : Fin 2048) :
    weights s (ix4 b h i j) = if j.val ≤ i.val then Cert.Taylor.poly (s (ix4 b h i j)) else 0 := by
  show Scalar.select
      (broadcastInDim S2x8x2048x2048 ![2, 3] bcast_S2048x2048_S2x8x2048x2048_2_3 causal (ix4 b h i j))
      (polyArr s (ix4 b h i j)) (Ideal.ofBits .f32 0x00000000#32) = _
  rw [causal4_apply, polyArr_apply, Ideal.ofBits_zero_f32]
  by_cases hle : j.val ≤ i.val
  · rw [(causal_eq_one_iff i j).2 hle, select_one, if_pos hle]
  · rw [eq_zero_of_ne_one (fun hc => hle ((causal_eq_one_iff i j).1 hc)), select_zero, if_neg hle]

/-! ### The numerator product: operand indices at a result index, axis by axis -/

/-- The contraction index of the numerator product is its one coordinate, a key position. -/
abbrev wvEquiv : (dot_S2x8x2048x2048_S2x8x2048x64_S2x8x2048x64_3_2_2_3_01_01).contr.Idx ≃ Fin 2048 :=
  contrEquiv1 dot_S2x8x2048x2048_S2x8x2048x64_S2x8x2048x64_3_2_2_3_01_01 2048 rfl rfl

theorem wv_lhs0 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).lhsIdx j c 0).val = (j 0).val := by
  unfold DotDims.lhsIdx
  rw [dif_pos (show (0 : Fin S2x8x2048x2048.rank) ∈ (dot_S2x8x2048x2048_S2x8x2048x64_S2x8x2048x64_3_2_2_3_01_01).lhsBatch from List.mem_cons_self)]
  rfl

theorem wv_lhs1 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).lhsIdx j c 1).val = (j 1).val := by
  unfold DotDims.lhsIdx
  rw [dif_pos (show (1 : Fin S2x8x2048x2048.rank) ∈ (dot_S2x8x2048x2048_S2x8x2048x64_S2x8x2048x64_3_2_2_3_01_01).lhsBatch from List.mem_cons_of_mem _ List.mem_cons_self)]
  rfl

theorem wv_lhs2 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).lhsIdx j c 2).val = (j 2).val := by
  unfold DotDims.lhsIdx
  rw [dif_neg (show ¬(2 : Fin S2x8x2048x2048.rank) ∈ (dot_S2x8x2048x2048_S2x8x2048x64_S2x8x2048x64_3_2_2_3_01_01).lhsBatch from by
        show ¬(2 : Fin 4) ∈ ([0, 1] : List (Fin 4)); decide),
    dif_pos (show (2 : Fin S2x8x2048x2048.rank) ∈ (dot_S2x8x2048x2048_S2x8x2048x64_S2x8x2048x64_3_2_2_3_01_01).lhsNonContracting from List.mem_cons_self)]
  rfl

theorem wv_lhs3 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).lhsIdx j c 3).val = (c ⟨0, Nat.one_pos⟩).val :=
  (dot_S2x8x2048x2048_S2x8x2048x64_S2x8x2048x64_3_2_2_3_01_01).lhsIdx_val_of_single rfl j c

theorem wv_rhs0 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).rhsIdx j c 0).val = (j 0).val := by
  unfold DotDims.rhsIdx
  rw [dif_pos (show (0 : Fin S2x8x2048x64.rank) ∈ (dot_S2x8x2048x2048_S2x8x2048x64_S2x8x2048x64_3_2_2_3_01_01).rhsBatch from List.mem_cons_self)]
  rfl

theorem wv_rhs1 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).rhsIdx j c 1).val = (j 1).val := by
  unfold DotDims.rhsIdx
  rw [dif_pos (show (1 : Fin S2x8x2048x64.rank) ∈ (dot_S2x8x2048x2048_S2x8x2048x64_S2x8x2048x64_3_2_2_3_01_01).rhsBatch from List.mem_cons_of_mem _ List.mem_cons_self)]
  rfl

theorem wv_rhs2 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).rhsIdx j c 2).val = (c ⟨0, Nat.one_pos⟩).val :=
  (dot_S2x8x2048x2048_S2x8x2048x64_S2x8x2048x64_3_2_2_3_01_01).rhsIdx_val_of_single rfl j c

theorem wv_rhs3 (j : S2x8x2048x64.Idx) (c : (dot_S2x8x2048x2048_S2x8x2048x64_S2x8x2048x64_3_2_2_3_01_01).contr.Idx) :
    ((dot_S2x8x2048x2048_S2x8x2048x64_S2x8x2048x64_3_2_2_3_01_01).rhsIdx j c 3).val = (j 3).val := by
  unfold DotDims.rhsIdx
  rw [dif_neg (show ¬(3 : Fin S2x8x2048x64.rank) ∈ (dot_S2x8x2048x2048_S2x8x2048x64_S2x8x2048x64_3_2_2_3_01_01).rhsBatch from by
        show ¬(3 : Fin 4) ∈ ([0, 1] : List (Fin 4)); decide),
    dif_pos (show (3 : Fin S2x8x2048x64.rank) ∈ (dot_S2x8x2048x2048_S2x8x2048x64_S2x8x2048x64_3_2_2_3_01_01).rhsNonContracting from List.mem_cons_self)]
  rfl

/-- At result entry (b, h, i, e) and key position j the weights are read at (b, h, i, j). -/
theorem wv_lhsIdx (b : Fin 2) (h : Fin 8) (i : Fin 2048) (e : Fin 64) (j : Fin 2048) :
    (dot_S2x8x2048x2048_S2x8x2048x64_S2x8x2048x64_3_2_2_3_01_01).lhsIdx (ix4 b h i e) (wvEquiv.symm j) = ix4 b h i j := by
  have hk := contrEquiv1_symm_val dot_S2x8x2048x2048_S2x8x2048x64_S2x8x2048x64_3_2_2_3_01_01 2048 rfl rfl j
  exact funext fun a => Fin.ext (by
    match a with
    | ⟨0, _⟩ => exact wv_lhs0 _ _
    | ⟨1, _⟩ => exact wv_lhs1 _ _
    | ⟨2, _⟩ => exact wv_lhs2 _ _
    | ⟨3, _⟩ => exact (wv_lhs3 _ _).trans hk)

/-- At result entry (b, h, i, e) and key position j the values are read at (b, h, j, e). -/
theorem wv_rhsIdx (b : Fin 2) (h : Fin 8) (i : Fin 2048) (e : Fin 64) (j : Fin 2048) :
    (dot_S2x8x2048x2048_S2x8x2048x64_S2x8x2048x64_3_2_2_3_01_01).rhsIdx (ix4 b h i e) (wvEquiv.symm j) = ix4 b h j e := by
  have hk := contrEquiv1_symm_val dot_S2x8x2048x2048_S2x8x2048x64_S2x8x2048x64_3_2_2_3_01_01 2048 rfl rfl j
  exact funext fun a => Fin.ext (by
    match a with
    | ⟨0, _⟩ => exact wv_rhs0 _ _
    | ⟨1, _⟩ => exact wv_rhs1 _ _
    | ⟨2, _⟩ => exact (wv_rhs2 _ _).trans hk
    | ⟨3, _⟩ => exact wv_rhs3 _ _)

/-- The numerator at an entry: the weighted sum of the values over all 2048 key positions. -/
theorem numer_apply (w : Sq) (V : Arr) (b : Fin 2) (h : Fin 8) (i : Fin 2048) (e : Fin 64) :
    numer w V (ix4 b h i e) = ∑ j : Fin 2048, w (ix4 b h i j) * V (ix4 b h j e) := by
  unfold numer
  refine (Ideal.dotGeneral_apply _ none .single w V (ix4 b h i e)).trans ?_
  rw [← Equiv.sum_comp wvEquiv.symm]
  refine Finset.sum_congr rfl fun j _ => ?_
  rw [wv_lhsIdx, wv_rhsIdx]

/-! ### The normaliser -/

/-- The square array with its key axis dropped is the array over batch, head and query position. -/
theorem sq_reduces : S2x8x2048x2048.Reduces [3] S2x8x2048 := by decide

/-- Over (b, h, i), the square-array index whose key coordinate is j is (b, h, i, j). -/
theorem sq_lift (b : Fin 2) (h : Fin 8) (i : Fin 2048) (j : Fin 2048) :
    sq_reduces.lift (ix3 b h i) j = ix4 b h i j := by
  exact funext fun a => Fin.ext (by
    match a with
    | ⟨0, _⟩ => rfl
    | ⟨1, _⟩ => rfl
    | ⟨2, _⟩ => rfl
    | ⟨3, _⟩ => rfl)

/-- The normaliser at an entry: the sum of the weights over all 2048 key positions. -/
theorem normal_apply (w : Sq) (b : Fin 2) (h : Fin 8) (i : Fin 2048) (e : Fin 64) :
    normal w (ix4 b h i e) = ∑ j : Fin 2048, w (ix4 b h i j) := by
  unfold normal
  refine (broadcastInDim_apply _ bcast_S2x8x2048x1_S2x8x2048x64_0_1_2_3 _ (ix4 b h i e)
    (ix4 b h i (0 : Fin 1)) (fun a => by
      match a with
      | ⟨0, _⟩ => rfl
      | ⟨1, _⟩ => rfl
      | ⟨2, _⟩ => rfl
      | ⟨3, _⟩ => rfl)).trans ?_
  refine (broadcastInDim_apply _ bcast_S2x8x2048_S2x8x2048x1_0_1_2 _ (ix4 b h i (0 : Fin 1))
    (ix3 b h i) (fun a => by
      match a with
      | ⟨0, _⟩ => rfl
      | ⟨1, _⟩ => rfl
      | ⟨2, _⟩ => rfl)).trans ?_
  refine (Ideal.hostReduceAdd_single reducesTo_S2x8x2048x2048_S2x8x2048_d3 sq_reduces w _ (ix3 b h i)).trans ?_
  show Ideal.ofBits .f32 0x00000000#32 + ∑ j : Fin 2048, w (sq_reduces.lift (ix3 b h i) j) = _
  rw [Ideal.ofBits_zero_f32, zero_add]
  exact Finset.sum_congr rfl fun j _ => congrArg w (sq_lift b h i j)

/-! ### The quotient and the replacements -/

theorem quot_apply (w : Sq) (V : Arr) (x : S2x8x2048x64.Idx) :
    quot w V x = Ideal.div (numer w V x) (normal w x) := rfl

/-- No extended real differs from itself: the first replacement changes nothing. -/
theorem guard0_apply (y : Arr) (x : S2x8x2048x64.Idx) : guard0 y x = y x := by
  show Scalar.select (Ideal.cmp .une (y x) (y x)) (Ideal.ofBits .f32 0x00000000#32) (y x) = y x
  rw [(Cert.Taylor.cmp_ne_self (y x)).2]
  exact select_zero _ _

theorem guard1_apply (y : Arr) (x : S2x8x2048x64.Idx) :
    guard1 y x = Scalar.select (Ideal.cmp .oeq (y x) (Ideal.ofBits .f32 0x7F800000#32)) (Ideal.ofBits .f32 0x7F7FFFFF#32) (y x) := rfl

theorem guard2_apply (y : Arr) (x : S2x8x2048x64.Idx) :
    guard2 y x = Scalar.select (Ideal.cmp .oeq (y x) (Ideal.ofBits .f32 0xFF800000#32)) (Ideal.ofBits .f32 0xFF7FFFFF#32) (y x) := rfl

/-- The three replacements together are the replacement of the two infinities. -/
theorem guards_apply (y : Arr) (x : S2x8x2048x64.Idx) : guards y x = Cert.Taylor.clamp (y x) := by
  unfold guards
  rw [guard2_apply, guard1_apply, guard0_apply]
  rfl

/-! ### The reference is the function -/

/-- The reference's result is, entry by entry, the masked cubic-Taylor attention of the specification. -/
theorem refOut_eq (Q K V : FVec Ideal S2x8x2048x64 .f32) : refOut Q K V = Cert.Taylor.result Q K V := by
  funext x
  obtain ⟨b, h, i, e, rfl⟩ : ∃ (b : Fin 2) (h : Fin 8) (i : Fin 2048) (e : Fin 64), x = ix4 b h i e :=
    ⟨x 0, x 1, x 2, x 3, eq_ix4 x⟩
  show guards (quot (weights (scores Q K)) V) (ix4 b h i e) = Cert.Taylor.outAt Q K V b h i e
  rw [guards_apply, quot_apply, numer_apply, normal_apply]
  unfold Cert.Taylor.outAt Cert.Taylor.num Cert.Taylor.den Cert.Taylor.weight Cert.Taylor.score
  have hw : ∀ j : Fin 2048, weights (scores Q K) (ix4 b h i j)
      = if j.val ≤ i.val then Cert.Taylor.poly (∑ d : Fin 64, Q (ix4 b h i d) * K (ix4 b h j d)) else 0 := fun j => by
    rw [weights_apply, scores_apply]
  simp only [hw]

end Cert.ReferenceIdeal.RefValue

end
-- ==== Proof.lean ====
/-
  Causal attention with the exponential's cubic Taylor polynomial, tiled by 256 × 256 blocks with two accumulators, against
  the plain formula.

  The kernel walks a grid of (batch·head, query block qi, key block ki). For each query block it zeroes a numerator and a
  normaliser accumulator at ki = 0, adds the block's masked weights times the values (and the weights' row sums) while
  ki ≤ qi, skips the key blocks after the query block, and at the last key block writes the quotient, infinities replaced.
  The reference forms all 2048 × 2048 scores at once, applies the same polynomial and the same lower-triangular mask, and
  divides the weighted sum of the values by the sum of the weights. Over the extended reals the two are one function
  (`Cert.Taylor.result`): a sum over 2048 key positions is the sum of its eight blocks of 256 in any grouping, a masked-out
  weight is zero and adds nothing, so a skipped block adds what the reference's zeros add; a change of float format is
  the identity; and the not-a-number guard of either source never fires, there being no such value.

  The frames: each kernel program's run is the pipeline's run over a body proved case by case of its three conditionals
  (`KI/`, and the same text at the word-level program's names in `K/`); the reference's is its list of operations run in order.
-/
import proofs.«137528_j72902774882841_1_alg».proof.Defs
import proofs.«137528_j72902774882841_1_alg».proof.Proof.Gen.Pre_finite_inputs
import proofs.«137528_j72902774882841_1_alg».proof.Proof.K.Outs
import proofs.«137528_j72902774882841_1_alg».proof.Proof.KI.Final
import proofs.«137528_j72902774882841_1_alg».proof.Proof.RefRun
import proofs.«137528_j72902774882841_1_alg».proof.Proof.RefValue

noncomputable section

namespace Cert.Proof

open Idealize.ShloMosaic Idealize.SL.Sem

/-- The word-level kernel runs to its end, faults nowhere and leaves its arguments as they were. -/
theorem frame_k : Cert.frame_Kernel := fun m ρ _ => Cert.Kernel.Body.frame m ρ
/-- So does the idealized kernel. -/
theorem frame_ki : Cert.frame_KernelIdeal := fun m ρ _ => Cert.KernelIdeal.Body.frame m ρ
/-- So does the reference: its operations run in order, none writing an argument. -/
theorem frame_ri : Cert.frame_ReferenceIdeal := fun m ρ _ => Cert.ReferenceIdeal.RefValue.frame_ri m ρ

/-- The ideal pass rewrote nothing: the idealized kernel is the kernel's own text read over the extended reals. -/
theorem preserves : Cert.preserves_Kernel_KernelIdeal := trivial

/-- From arguments that agree both programs end with `Cert.Taylor.result` of them: the kernel's written-back blocks tile it,
    and the reference's composed operations are it index by index. -/
theorem algebraic : Cert.algebraic_KernelIdeal_ReferenceIdeal := by
  intro m ρ m' ρ' _ hagree
  refine ⟨fun c => Cert.Taylor.result (Cert.KernelIdeal.Body.Qa m c) (Cert.KernelIdeal.Body.Ka m c) (Cert.KernelIdeal.Body.Va m c),
    Cert.KernelIdeal.Body.value_run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.refOut_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
